-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1048576x4 : Shape := ⟨2, ![1048576, 4]⟩
abbrev S1048576x1 : Shape := ⟨2, ![1048576, 1]⟩
abbrev S2x32 : Shape := ⟨2, ![2, 32]⟩
abbrev S32 : Shape := ⟨1, ![32]⟩
abbrev S32x32 : Shape := ⟨2, ![32, 32]⟩
abbrev S32x1 : Shape := ⟨2, ![32, 1]⟩
abbrev S1 : Shape := ⟨1, ![1]⟩
abbrev S_ : Shape := ⟨0, ![]⟩

class Facts : Prop where
  bcast_S_S1048576x4 : S_.BroadcastsInDim S1048576x4 (![] : Fin 0 → Fin S1048576x4.rank)
  reducesTo_S1048576x4_S_d0_1 : S1048576x4.ReducesTo [0, 1] S_
  h_S_ : 0 < S_.numel
  bcast_S_S1048576x1 : S_.BroadcastsInDim S1048576x1 (![] : Fin 0 → Fin S1048576x1.rank)
  reducesTo_S1048576x1_S_d0_1 : S1048576x1.ReducesTo [0, 1] S_
  bcast_S_S2x32 : S_.BroadcastsInDim S2x32 (![] : Fin 0 → Fin S2x32.rank)
  reducesTo_S2x32_S_d0_1 : S2x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S1 .f32) (main_v33 : IVec S_ 1) : IVec S_ 1 :=
  let main_v34 : FVec F S1 .f32 := Host.absf main_arg7
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  main_v38

def fn_part1 {F : FTy → Type} [FloatOps F] (main_arg4 : FVec F S32x32 .f32) (main_arg5 : FVec F S32 .f32) (main_arg6 : FVec F S32x1 .f32) (main_arg7 : FVec F S1 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S32x32 .f32 := Host.absf main_arg4
  let main_cst_6 : FVec F S_ .f32 := constant S_ .f32 0x7F800000#32
  let main_v20 : FVec F S32x32 .f32 := broadcastInDim S32x32 ![] bcast_S_S32x32 main_cst_6
  let main_v21 : IVec S32x32 1 := cmpf .olt main_v19 main_v20
  let main_c_7 : IVec S_ 1 := constantI S_ 1 1#1
  let main_v22 : IVec S_ 1 := (fun x v => Host.reduce IntOp.andi x v reducesTo_S32x32_S_d0_1 h_S_) main_v21 main_c_7
  let main_v23 : IVec S_ 1 := andi main_v18 main_v22
  let main_v24 : FVec F S32 .f32 := Host.absf main_arg5
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S32x1 .f32 := Host.absf main_arg6
  let main_cst_10 : FVec F S_ .f32 := constant S_ .f32 0x7F800000#32
  let main_v30 : FVec F S32x1 .f32 := broadcastInDim S32x1 ![] bcast_S_S32x1 main_cst_10
  let main_v31 : IVec S32x1 1 := cmpf .olt main_v29 main_v30
  let main_c_11 : IVec S_ 1 := constantI S_ 1 1#1
  let main_v32 : IVec S_ 1 := (fun x v => Host.reduce IntOp.andi x v reducesTo_S32x1_S_d0_1 h_S_) main_v31 main_c_11
  let main_v33 : IVec S_ 1 := andi main_v28 main_v32
  fn_part2 (F := F) main_arg7 main_v33

def fn {F : FTy → Type} [FloatOps F] (main_arg0 : FVec F S1048576x4 .f32) (main_arg1 : FVec F S1048576x1 .f32) (main_arg2 : FVec F S2x32 .f32) (main_arg3 : FVec F S32 .f32) (main_arg4 : FVec F S32x32 .f32) (main_arg5 : FVec F S32 .f32) (main_arg6 : FVec F S32x1 .f32) (main_arg7 : FVec F S1 .f32) : IVec S_ 1 :=
  let main_v0 : FVec F S1048576x4 .f32 := Host.absf main_arg0
  let main_cst : FVec F S_ .f32 := constant S_ .f32 0x7F800000#32
  let main_v1 : FVec F S1048576x4 .f32 := broadcastInDim S1048576x4 ![] bcast_S_S1048576x4 main_cst
  let main_v2 : IVec S1048576x4 1 := cmpf .olt main_v0 main_v1
  let main_c : IVec S_ 1 := constantI S_ 1 1#1
  let main_v3 : IVec S_ 1 := (fun x v => Host.reduce IntOp.andi x v reducesTo_S1048576x4_S_d0_1 h_S_) main_v2 main_c
  let main_v4 : FVec F S1048576x1 .f32 := Host.absf main_arg1
  let main_cst_0 : FVec F S_ .f32 := constant S_ .f32 0x7F800000#32
  let main_v5 : FVec F S1048576x1 .f32 := broadcastInDim S1048576x1 ![] bcast_S_S1048576x1 main_cst_0
  let main_v6 : IVec S1048576x1 1 := cmpf .olt main_v4 main_v5
  let main_c_1 : IVec S_ 1 := constantI S_ 1 1#1
  let main_v7 : IVec S_ 1 := (fun x v => Host.reduce IntOp.andi x v reducesTo_S1048576x1_S_d0_1 h_S_) main_v6 main_c_1
  let main_v8 : IVec S_ 1 := andi main_v3 main_v7
  let main_v9 : FVec F S2x32 .f32 := Host.absf main_arg2
  let main_cst_2 : FVec F S_ .f32 := constant S_ .f32 0x7F800000#32
  let main_v10 : FVec F S2x32 .f32 := broadcastInDim S2x32 ![] bcast_S_S2x32 main_cst_2
  let main_v11 : IVec S2x32 1 := cmpf .olt main_v9 main_v10
  let main_c_3 : IVec S_ 1 := constantI S_ 1 1#1
  let main_v12 : IVec S_ 1 := (fun x v => Host.reduce IntOp.andi x v reducesTo_S2x32_S_d0_1 h_S_) main_v11 main_c_3
  let main_v13 : IVec S_ 1 := andi main_v8 main_v12
  let main_v14 : FVec F S32 .f32 := Host.absf main_arg3
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg4 main_arg5 main_arg6 main_arg7 main_v13 main_v16
-- ==== Kernel.lean ====
abbrev S1048576x4 : Shape := ⟨2, ![1048576, 4]⟩
abbrev S1048576x1 : Shape := ⟨2, ![1048576, 1]⟩
abbrev S2x32 : Shape := ⟨2, ![2, 32]⟩
abbrev S32 : Shape := ⟨1, ![32]⟩
abbrev S32x32 : Shape := ⟨2, ![32, 32]⟩
abbrev S32x1 : Shape := ⟨2, ![32, 1]⟩
abbrev S1 : Shape := ⟨1, ![1]⟩
abbrev S4096x4 : Shape := ⟨2, ![4096, 4]⟩
abbrev S4096x1 : Shape := ⟨2, ![4096, 1]⟩
abbrev S1x32 : Shape := ⟨2, ![1, 32]⟩
abbrev S4096x32 : Shape := ⟨2, ![4096, 32]⟩
abbrev S1x1 : Shape := ⟨2, ![1, 1]⟩

abbrev nBuf : Space → Nat
  | .hbm => 9
  | .vmem => 12
  | .smem => 0
  | _ => 0

abbrev bufTy : (tb : Table) → Fin (tcTables nBuf tb) → BufTy
  | .hbm, ⟨0, _⟩ => ⟨S1048576x4, .f32⟩
  | .hbm, ⟨1, _⟩ => ⟨S1048576x1, .f32⟩
  | .hbm, ⟨2, _⟩ => ⟨S2x32, .f32⟩
  | .hbm, ⟨3, _⟩ => ⟨S32, .f32⟩
  | .hbm, ⟨4, _⟩ => ⟨S32x32, .f32⟩
  | .hbm, ⟨5, _⟩ => ⟨S32, .f32⟩
  | .hbm, ⟨6, _⟩ => ⟨S32x1, .f32⟩
  | .hbm, ⟨7, _⟩ => ⟨S1, .f32⟩
  | .hbm, ⟨8, _⟩ => ⟨S1048576x1, .f32⟩
  | .local _ .vmem, ⟨0, _⟩ => ⟨S4096x4, .f32⟩
  | .local _ .vmem, ⟨1, _⟩ => ⟨S4096x4, .f32⟩
  | .local _ .vmem, ⟨2, _⟩ => ⟨S4096x1, .f32⟩
  | .local _ .vmem, ⟨3, _⟩ => ⟨S4096x1, .f32⟩
  | .local _ .vmem, ⟨4, _⟩ => ⟨S2x32, .f32⟩
  | .local _ .vmem, ⟨5, _⟩ => ⟨S32, .f32⟩
  | .local _ .vmem, ⟨6, _⟩ => ⟨S32x32, .f32⟩
  | .local _ .vmem, ⟨7, _⟩ => ⟨S32, .f32⟩
  | .local _ .vmem, ⟨8, _⟩ => ⟨S32x1, .f32⟩
  | .local _ .vmem, ⟨9, _⟩ => ⟨S1, .f32⟩
  | .local _ .vmem, ⟨10, _⟩ => ⟨S4096x1, .f32⟩
  | .local _ .vmem, ⟨11, _⟩ => ⟨S4096x1, .f32⟩
  | _, _ => ⟨S1048576x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S4096x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  inb_S4096x4_S4096x4_0_0 : ∀ a, (![0, 0] : Fin 2 → Nat) a + S4096x4.size a ≤ S4096x4.size a
  h_S4096x4 : 0 < S4096x4.numel
  slices_S4096x4_o0_0_S4096x1 : S4096x4.Slices ![0, 0] S4096x1
  slices_S4096x4_o0_1_S4096x1 : S4096x4.Slices ![0, 1] S4096x1
  slices_S4096x4_o0_2_S4096x1 : S4096x4.Slices ![0, 2] S4096x1
  slices_S4096x4_o0_3_S4096x1 : S4096x4.Slices ![0, 3] S4096x1
  inb_S4096x1_S4096x1_0_0 : ∀ a, (![0, 0] : Fin 2 → Nat) a + S4096x1.size a ≤ S4096x1.size a
  h_S4096x1 : 0 < S4096x1.numel
  inb_S2x32_S2x32_0_0 : ∀ a, (![0, 0] : Fin 2 → Nat) a + S2x32.size a ≤ S2x32.size a
  h_S2x32 : 0 < S2x32.numel
  inb_S32_S32_0 : ∀ a, (![0] : Fin 1 → Nat) a + S32.size a ≤ S32.size a
  h_S32 : 0 < S32.numel
  slices_S2x32_o0_0_S1x32 : S2x32.Slices ![0, 0] S1x32
  slices_S2x32_o1_0_S1x32 : S2x32.Slices ![1, 0] S1x32
  inb_S32x32_S32x32_0_0 : ∀ a, (![0, 0] : Fin 2 → Nat) a + S32x32.size a ≤ S32x32.size a
  h_S32x32 : 0 < S32x32.numel
  bitsLt_bf16_f32 : FTy.bits .bf16 < FTy.bits .f32
  inb_S32x1_S32x1_0_0 : ∀ a, (![0, 0] : Fin 2 → Nat) a + S32x1.size a ≤ S32x1.size a
  h_S32x1 : 0 < S32x1.numel
  inb_S1_S1_0 : ∀ a, (![0] : Fin 1 → Nat) a + S1.size a ≤ S1.size a
  h_S1 : 0 < S1.numel
  broadcasts_S4096x1_S4096x32 : S4096x1.Broadcasts S4096x32
  broadcasts_S1x32_S4096x32 : S1x32.Broadcasts S4096x32
  shapeCasts_S32_S1x32 : S32.ShapeCasts S1x32
  shapeCasts_S1_S1x1 : S1.ShapeCasts S1x1
  broadcasts_S1x1_S4096x1 : S1x1.Broadcasts S4096x1
  dot_S4096x32_S32x32_S4096x32_1_0_0_1_n_n_wf : DotDims.WF S4096x32 S32x32 S4096x32 [1] [0] [0] [1] [] []
  dot_S4096x32_S32x1_S4096x1_1_0_0_1_n_n_wf : DotDims.WF S4096x32 S32x1 S4096x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x4.size a ≤ S1048576x4.size a
  hwx0_0 : ∀ i : grid0.Coords, EltTy.bits .f32 = 32 ∨ (Rect.block (s := S1048576x4) S4096x4.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x1.size a ≤ S1048576x1.size a
  hwx0_1 : ∀ i : grid0.Coords, EltTy.bits .f32 = 32 ∨ (Rect.block (s := S1048576x1) S4096x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2x32.size a ≤ S2x32.size a
  hwx0_2 : ∀ i : grid0.Coords, EltTy.bits .f32 = 32 ∨ (Rect.block (s := S2x32) S2x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32.size a ≤ S32.size a
  hwx0_3 : ∀ i : grid0.Coords, EltTy.bits .f32 = 32 ∨ (Rect.block (s := S32) S32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32x32.size a ≤ S32x32.size a
  hwx0_4 : ∀ i : grid0.Coords, EltTy.bits .f32 = 32 ∨ (Rect.block (s := S32x32) S32x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32.size a ≤ S32.size a
  hwx0_5 : ∀ i : grid0.Coords, EltTy.bits .f32 = 32 ∨ (Rect.block (s := S32) S32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S32x1.size a ≤ S32x1.size a
  hwx0_6 : ∀ i : grid0.Coords, EltTy.bits .f32 = 32 ∨ (Rect.block (s := S32x1) S32x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1.size a ≤ S1.size a
  hwx0_7 : ∀ i : grid0.Coords, EltTy.bits .f32 = 32 ∨ (Rect.block (s := S1) S1.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S4096x1.size a ≤ S1048576x1.size a
  hwx0_8 : ∀ i : grid0.Coords, EltTy.bits .f32 = 32 ∨ (Rect.block (s := S1048576x1) S4096x1.size (cc0_transform_8 i) (hinb0_8 i)).WholeWords (EltTy.packing .f32)

variable [Facts₀]

def dot_S4096x32_S32x32_S4096x32_1_0_0_1_n_n : DotDims S4096x32 S32x32 S4096x32 where
  lhsContracting := [1]
  rhsContracting := [0]
  lhsNonContracting := [0]
  rhsNonContracting := [1]
  lhsBatch := []
  rhsBatch := []
  wf := dot_S4096x32_S32x32_S4096x32_1_0_0_1_n_n_wf
def dot_S4096x32_S32x1_S4096x1_1_0_0_1_n_n : DotDims S4096x32 S32x1 S4096x1 where
  lhsContracting := [1]
  rhsContracting := [0]
  lhsNonContracting := [0]
  rhsNonContracting := [1]
  lhsBatch := []
  rhsBatch := []
  wf := dot_S4096x32_S32x1_S4096x1_1_0_0_1_n_n_wf

abbrev win0_0 : Pipeline.Window sig grid0 :=
  Pipeline.Window.ofSpec (Memref.whole main_arg0) S4096x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S32x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S32x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v0) S4096x1.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S1048576x4 : Shape := ⟨2, ![1048576, 4]⟩
abbrev S1048576x1 : Shape := ⟨2, ![1048576, 1]⟩
abbrev S2x32 : Shape := ⟨2, ![2, 32]⟩
abbrev S32 : Shape := ⟨1, ![32]⟩
abbrev S32x32 : Shape := ⟨2, ![32, 32]⟩
abbrev S32x1 : Shape := ⟨2, ![32, 1]⟩
abbrev S1 : Shape := ⟨1, ![1]⟩
abbrev S1048576x2 : Shape := ⟨2, ![1048576, 2]⟩
abbrev S1048576x32 : Shape := ⟨2, ![1048576, 32]⟩
abbrev S1x32 : Shape := ⟨2, ![1, 32]⟩
abbrev S1x1 : Shape := ⟨2, ![1, 1]⟩
abbrev S_ : Shape := ⟨0, ![]⟩

abbrev nBuf : Space → Nat
  | .hbm => 162
  | .vmem => 0
  | .smem => 0
  | _ => 0

abbrev hbmTy0_0 (i : Nat) : BufTy := match i % 128 with
  | 0 => ⟨S1048576x4, .f32⟩
  | 1 => ⟨S1048576x1, .f32⟩
  | 2 => ⟨S2x32, .f32⟩
  | 3 => ⟨S32, .f32⟩
  | 4 => ⟨S32x32, .f32⟩
  | 5 => ⟨S32, .f32⟩
  | 6 => ⟨S32x1, .f32⟩
  | 7 => ⟨S1, .f32⟩
  | 8 => ⟨S1048576x1, .f32⟩
  | 9 => ⟨S1048576x1, .f32⟩
  | 10 => ⟨S1048576x1, .f32⟩
  | 11 => ⟨S1048576x1, .f32⟩
  | 12 => ⟨S1048576x2, .f32⟩
  | 13 => ⟨S1048576x32, .f32⟩
  | 14 => ⟨S1x32, .f32⟩
  | 15 => ⟨S1048576x32, .f32⟩
  | 16 => ⟨S1048576x32, .f32⟩
  | 17 => ⟨S1048576x32, .f32⟩
  | 18 => ⟨S1048576x32, .f32⟩
  | 19 => ⟨S1x32, .f32⟩
  | 20 => ⟨S1048576x32, .f32⟩
  | 21 => ⟨S1048576x32, .f32⟩
  | 22 => ⟨S1048576x32, .f32⟩
  | 23 => ⟨S1048576x1, .f32⟩
  | 24 => ⟨S1x1, .f32⟩
  | 25 => ⟨S1048576x1, .f32⟩
  | 26 => ⟨S1048576x1, .f32⟩
  | 27 => ⟨S_, .f32⟩
  | 28 => ⟨S1048576x1, .f32⟩
  | 29 => ⟨S1048576x1, .f32⟩
  | 30 => ⟨S1048576x1, .f32⟩
  | 31 => ⟨S1048576x1, .f32⟩
  | 32 => ⟨S1048576x1, .i1⟩
  | 33 => ⟨S1048576x1, .f32⟩
  | 34 => ⟨S1048576x1, .f32⟩
  | 35 => ⟨S1048576x1, .f32⟩
  | 36 => ⟨S1048576x1, .f32⟩
  | 37 => ⟨S1048576x1, .f32⟩
  | 38 => ⟨S1048576x1, .f32⟩
  | 39 => ⟨S1048576x1, .f32⟩
  | 40 => ⟨S1048576x1, .f32⟩
  | 41 => ⟨S1048576x1, .f32⟩
  | 42 => ⟨S1048576x1, .f32⟩
  | 43 => ⟨S1048576x1, .f32⟩
  | 44 => ⟨S_, .f32⟩
  | 45 => ⟨S1048576x1, .f32⟩
  | 46 => ⟨S1048576x1, .f32⟩
  | 47 => ⟨S1048576x1, .f32⟩
  | 48 => ⟨S1048576x2, .f32⟩
  | 49 => ⟨S1048576x32, .f32⟩
  | 50 => ⟨S1x32, .f32⟩
  | 51 => ⟨S1048576x32, .f32⟩
  | 52 => ⟨S1048576x32, .f32⟩
  | 53 => ⟨S1048576x32, .f32⟩
  | 54 => ⟨S1048576x32, .f32⟩
  | 55 => ⟨S1x32, .f32⟩
  | 56 => ⟨S1048576x32, .f32⟩
  | 57 => ⟨S1048576x32, .f32⟩
  | 58 => ⟨S1048576x32, .f32⟩
  | 59 => ⟨S1048576x1, .f32⟩
  | 60 => ⟨S1x1, .f32⟩
  | 61 => ⟨S1048576x1, .f32⟩
  | 62 => ⟨S1048576x1, .f32⟩
  | 63 => ⟨S_, .f32⟩
  | 64 => ⟨S1048576x1, .f32⟩
  | 65 => ⟨S1048576x1, .f32⟩
  | 66 => ⟨S1048576x1, .f32⟩
  | 67 => ⟨S1048576x1, .f32⟩
  | 68 => ⟨S1048576x1, .i1⟩
  | 69 => ⟨S1048576x1, .f32⟩
  | 70 => ⟨S1048576x1, .f32⟩
  | 71 => ⟨S1048576x1, .f32⟩
  | 72 => ⟨S1048576x1, .f32⟩
  | 73 => ⟨S1048576x1, .f32⟩
  | 74 => ⟨S1048576x1, .f32⟩
  | 75 => ⟨S1048576x1, .f32⟩
  | 76 => ⟨S1048576x1, .f32⟩
  | 77 => ⟨S1048576x1, .f32⟩
  | 78 => ⟨S1048576x1, .f32⟩
  | 79 => ⟨S1048576x1, .f32⟩
  | 80 => ⟨S_, .f32⟩
  | 81 => ⟨S1048576x1, .f32⟩
  | 82 => ⟨S1048576x1, .f32⟩
  | 83 => ⟨S1048576x1, .f32⟩
  | 84 => ⟨S1048576x2, .f32⟩
  | 85 => ⟨S1048576x32, .f32⟩
  | 86 => ⟨S1x32, .f32⟩
  | 87 => ⟨S1048576x32, .f32⟩
  | 88 => ⟨S1048576x32, .f32⟩
  | 89 => ⟨S1048576x32, .f32⟩
  | 90 => ⟨S1048576x32, .f32⟩
  | 91 => ⟨S1x32, .f32⟩
  | 92 => ⟨S1048576x32, .f32⟩
  | 93 => ⟨S1048576x32, .f32⟩
  | 94 => ⟨S1048576x32, .f32⟩
  | 95 => ⟨S1048576x1, .f32⟩
  | 96 => ⟨S1x1, .f32⟩
  | 97 => ⟨S1048576x1, .f32⟩
  | 98 => ⟨S1048576x1, .f32⟩
  | 99 => ⟨S_, .f32⟩
  | 100 => ⟨S1048576x1, .f32⟩
  | 101 => ⟨S1048576x1, .f32⟩
  | 102 => ⟨S1048576x1, .f32⟩
  | 103 => ⟨S1048576x1, .f32⟩
  | 104 => ⟨S1048576x1, .i1⟩
  | 105 => ⟨S1048576x1, .f32⟩
  | 106 => ⟨S1048576x1, .f32⟩
  | 107 => ⟨S1048576x1, .f32⟩
  | 108 => ⟨S1048576x1, .f32⟩
  | 109 => ⟨S1048576x1, .f32⟩
  | 110 => ⟨S1048576x1, .f32⟩
  | 111 => ⟨S1048576x1, .f32⟩
  | 112 => ⟨S1048576x1, .f32⟩
  | 113 => ⟨S1048576x1, .f32⟩
  | 114 => ⟨S1048576x1, .f32⟩
  | 115 => ⟨S1048576x1, .f32⟩
  | 116 => ⟨S1048576x1, .f32⟩
  | 117 => ⟨S1048576x2, .f32⟩
  | 118 => ⟨S1048576x32, .f32⟩
  | 119 => ⟨S1x32, .f32⟩
  | 120 => ⟨S1048576x32, .f32⟩
  | 121 => ⟨S1048576x32, .f32⟩
  | 122 => ⟨S1048576x32, .f32⟩
  | 123 => ⟨S1048576x32, .f32⟩
  | 124 => ⟨S1x32, .f32⟩
  | 125 => ⟨S1048576x32, .f32⟩
  | 126 => ⟨S1048576x32, .f32⟩
  | 127 => ⟨S1048576x32, .f32⟩
  | _ => ⟨S1048576x4, .f32⟩

abbrev hbmTy0_1 (i : Nat) : BufTy := match i % 128 with
  | 0 => ⟨S1048576x1, .f32⟩
  | 1 => ⟨S1x1, .f32⟩
  | 2 => ⟨S1048576x1, .f32⟩
  | 3 => ⟨S1048576x1, .f32⟩
  | 4 => ⟨S_, .f32⟩
  | 5 => ⟨S1048576x1, .f32⟩
  | 6 => ⟨S1048576x1, .f32⟩
  | 7 => ⟨S1048576x1, .f32⟩
  | 8 => ⟨S1048576x1, .f32⟩
  | 9 => ⟨S1048576x1, .i1⟩
  | 10 => ⟨S1048576x1, .f32⟩
  | 11 => ⟨S1048576x1, .f32⟩
  | 12 => ⟨S1048576x1, .f32⟩
  | 13 => ⟨S1048576x1, .f32⟩
  | 14 => ⟨S1048576x1, .f32⟩
  | 15 => ⟨S1048576x1, .f32⟩
  | 16 => ⟨S1048576x1, .f32⟩
  | 17 => ⟨S1048576x1, .f32⟩
  | 18 => ⟨S1048576x1, .f32⟩
  | 19 => ⟨S1048576x1, .f32⟩
  | 20 => ⟨S1048576x1, .f32⟩
  | 21 => ⟨S_, .f32⟩
  | 22 => ⟨S1048576x1, .f32⟩
  | 23 => ⟨S1048576x1, .f32⟩
  | 24 => ⟨S1048576x1, .f32⟩
  | 25 => ⟨S_, .f32⟩
  | 26 => ⟨S1048576x1, .f32⟩
  | 27 => ⟨S1048576x1, .f32⟩
  | 28 => ⟨S1048576x1, .f32⟩
  | 29 => ⟨S1048576x1, .f32⟩
  | 30 => ⟨S_, .f32⟩
  | 31 => ⟨S1048576x1, .f32⟩
  | 32 => ⟨S1048576x1, .f32⟩
  | 33 => ⟨S1048576x1, .f32⟩
  | _ => ⟨S1048576x4, .f32⟩

abbrev hbmTy (i : Nat) : BufTy := match i / 128 with
  | 0 => hbmTy0_0 i
  | 1 => hbmTy0_1 i
  | _ => ⟨S1048576x4, .f32⟩

abbrev bufTy : (tb : Table) → Fin (tcTables nBuf tb) → BufTy
  | .hbm, ⟨i, _⟩ => hbmTy i
  | _, _ => ⟨S1048576x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_call0_cst : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_call0_v5 : Ref sig .tc := ⟨.hbm, 33, rfl⟩
abbrev main_call0_v6 : Ref sig .tc := ⟨.hbm, 34, rfl⟩
abbrev main_call0_v7 : Ref sig .tc := ⟨.hbm, 35, rfl⟩
abbrev main_call0_v8 : Ref sig .tc := ⟨.hbm, 36, rfl⟩
abbrev main_call0_v9 : Ref sig .tc := ⟨.hbm, 37, rfl⟩
abbrev main_call0_v10 : Ref sig .tc := ⟨.hbm, 38, rfl⟩
abbrev main_call0_v11 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_cst : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_call1_cst : Ref sig .tc := ⟨.hbm, 63, rfl⟩
abbrev main_call1_v0 : Ref sig .tc := ⟨.hbm, 64, rfl⟩
abbrev main_call1_v1 : Ref sig .tc := ⟨.hbm, 65, rfl⟩
abbrev main_call1_v2 : Ref sig .tc := ⟨.hbm, 66, rfl⟩
abbrev main_call1_v3 : Ref sig .tc := ⟨.hbm, 67, rfl⟩
abbrev main_call1_v4 : Ref sig .tc := ⟨.hbm, 68, rfl⟩
abbrev main_call1_v5 : Ref sig .tc := ⟨.hbm, 69, rfl⟩
abbrev main_call1_v6 : Ref sig .tc := ⟨.hbm, 70, rfl⟩
abbrev main_call1_v7 : Ref sig .tc := ⟨.hbm, 71, rfl⟩
abbrev main_call1_v8 : Ref sig .tc := ⟨.hbm, 72, rfl⟩
abbrev main_call1_v9 : Ref sig .tc := ⟨.hbm, 73, rfl⟩
abbrev main_call1_v10 : Ref sig .tc := ⟨.hbm, 74, rfl⟩
abbrev main_call1_v11 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_cst_0 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_call2_cst : Ref sig .tc := ⟨.hbm, 99, rfl⟩
abbrev main_call2_v0 : Ref sig .tc := ⟨.hbm, 100, rfl⟩
abbrev main_call2_v1 : Ref sig .tc := ⟨.hbm, 101, rfl⟩
abbrev main_call2_v2 : Ref sig .tc := ⟨.hbm, 102, rfl⟩
abbrev main_call2_v3 : Ref sig .tc := ⟨.hbm, 103, rfl⟩
abbrev main_call2_v4 : Ref sig .tc := ⟨.hbm, 104, rfl⟩
abbrev main_call2_v5 : Ref sig .tc := ⟨.hbm, 105, rfl⟩
abbrev main_call2_v6 : Ref sig .tc := ⟨.hbm, 106, rfl⟩
abbrev main_call2_v7 : Ref sig .tc := ⟨.hbm, 107, rfl⟩
abbrev main_call2_v8 : Ref sig .tc := ⟨.hbm, 108, rfl⟩
abbrev main_call2_v9 : Ref sig .tc := ⟨.hbm, 109, rfl⟩
abbrev main_call2_v10 : Ref sig .tc := ⟨.hbm, 110, rfl⟩
abbrev main_call2_v11 : Ref sig .tc := ⟨.hbm, 111, rfl⟩
abbrev main_v63 : Ref sig .tc := ⟨.hbm, 112, rfl⟩
abbrev main_v64 : Ref sig .tc := ⟨.hbm, 113, rfl⟩
abbrev main_v65 : Ref sig .tc := ⟨.hbm, 114, rfl⟩
abbrev main_v66 : Ref sig .tc := ⟨.hbm, 115, rfl⟩
abbrev main_v67 : Ref sig .tc := ⟨.hbm, 116, rfl⟩
abbrev main_v68 : Ref sig .tc := ⟨.hbm, 117, rfl⟩
abbrev main_v69 : Ref sig .tc := ⟨.hbm, 118, rfl⟩
abbrev main_v70 : Ref sig .tc := ⟨.hbm, 119, rfl⟩
abbrev main_v71 : Ref sig .tc := ⟨.hbm, 120, rfl⟩
abbrev main_v72 : Ref sig .tc := ⟨.hbm, 121, rfl⟩
abbrev main_v73 : Ref sig .tc := ⟨.hbm, 122, rfl⟩
abbrev main_v74 : Ref sig .tc := ⟨.hbm, 123, rfl⟩
abbrev main_v75 : Ref sig .tc := ⟨.hbm, 124, rfl⟩
abbrev main_v76 : Ref sig .tc := ⟨.hbm, 125, rfl⟩
abbrev main_v77 : Ref sig .tc := ⟨.hbm, 126, rfl⟩
abbrev main_v78 : Ref sig .tc := ⟨.hbm, 127, rfl⟩
abbrev main_v79 : Ref sig .tc := ⟨.hbm, 128, rfl⟩
abbrev main_v80 : Ref sig .tc := ⟨.hbm, 129, rfl⟩
abbrev main_v81 : Ref sig .tc := ⟨.hbm, 130, rfl⟩
abbrev main_v82 : Ref sig .tc := ⟨.hbm, 131, rfl⟩
abbrev main_call3_cst : Ref sig .tc := ⟨.hbm, 132, rfl⟩
abbrev main_call3_v0 : Ref sig .tc := ⟨.hbm, 133, rfl⟩
abbrev main_call3_v1 : Ref sig .tc := ⟨.hbm, 134, rfl⟩
abbrev main_call3_v2 : Ref sig .tc := ⟨.hbm, 135, rfl⟩
abbrev main_call3_v3 : Ref sig .tc := ⟨.hbm, 136, rfl⟩
abbrev main_call3_v4 : Ref sig .tc := ⟨.hbm, 137, rfl⟩
abbrev main_call3_v5 : Ref sig .tc := ⟨.hbm, 138, rfl⟩
abbrev main_call3_v6 : Ref sig .tc := ⟨.hbm, 139, rfl⟩
abbrev main_call3_v7 : Ref sig .tc := ⟨.hbm, 140, rfl⟩
abbrev main_call3_v8 : Ref sig .tc := ⟨.hbm, 141, rfl⟩
abbrev main_call3_v9 : Ref sig .tc := ⟨.hbm, 142, rfl⟩
abbrev main_call3_v10 : Ref sig .tc := ⟨.hbm, 143, rfl⟩
abbrev main_call3_v11 : Ref sig .tc := ⟨.hbm, 144, rfl⟩
abbrev main_v83 : Ref sig .tc := ⟨.hbm, 145, rfl⟩
abbrev main_v84 : Ref sig .tc := ⟨.hbm, 146, rfl⟩
abbrev main_v85 : Ref sig .tc := ⟨.hbm, 147, rfl⟩
abbrev main_v86 : Ref sig .tc := ⟨.hbm, 148, rfl⟩
abbrev main_cst_1 : Ref sig .tc := ⟨.hbm, 149, rfl⟩
abbrev main_v87 : Ref sig .tc := ⟨.hbm, 150, rfl⟩
abbrev main_v88 : Ref sig .tc := ⟨.hbm, 151, rfl⟩
abbrev main_v89 : Ref sig .tc := ⟨.hbm, 152, rfl⟩
abbrev main_cst_2 : Ref sig .tc := ⟨.hbm, 153, rfl⟩
abbrev main_v90 : Ref sig .tc := ⟨.hbm, 154, rfl⟩
abbrev main_v91 : Ref sig .tc := ⟨.hbm, 155, rfl⟩
abbrev main_v92 : Ref sig .tc := ⟨.hbm, 156, rfl⟩
abbrev main_v93 : Ref sig .tc := ⟨.hbm, 157, rfl⟩
abbrev main_cst_3 : Ref sig .tc := ⟨.hbm, 158, rfl⟩
abbrev main_v94 : Ref sig .tc := ⟨.hbm, 159, rfl⟩
abbrev main_v95 : Ref sig .tc := ⟨.hbm, 160, rfl⟩
abbrev main_v96 : Ref sig .tc := ⟨.hbm, 161, rfl⟩

abbrev nD : Nat := 1
abbrev τ : Topo := Topo.v7x

variable {F : FTy → Type} [FloatOps F]

class Facts₀ : Prop where
  slices_S1048576x4_S1048576x1_0_0 : S1048576x4.Slices ![0, 0] S1048576x1
  slices_S1048576x4_S1048576x1_0_1 : S1048576x4.Slices ![0, 1] S1048576x1
  slices_S1048576x4_S1048576x1_0_2 : S1048576x4.Slices ![0, 2] S1048576x1
  slices_S1048576x4_S1048576x1_0_3 : S1048576x4.Slices ![0, 3] S1048576x1
  concatenates_S1048576x1_S1048576x1_S1048576x2_d1 : Shape.Concatenates [S1048576x1, S1048576x1] S1048576x2 1
  bcast_S32_S1x32_1 : S32.BroadcastsInDim S1x32 (![1] : Fin 1 → Fin S1x32.rank)
  bcast_S1x32_S1048576x32_0_1 : S1x32.BroadcastsInDim S1048576x32 (![0, 1] : Fin 2 → Fin S1048576x32.rank)
  bcast_S1_S1x1_1 : S1.BroadcastsInDim S1x1 (![1] : Fin 1 → Fin S1x1.rank)
  bcast_S1x1_S1048576x1_0_1 : S1x1.BroadcastsInDim S1048576x1 (![0, 1] : Fin 2 → Fin S1048576x1.rank)
  bcast_S_S1048576x1 : S_.BroadcastsInDim S1048576x1 (![] : Fin 0 → Fin S1048576x1.rank)
  dot_S1048576x2_S2x32_S1048576x32_1_0_0_1_n_n_wf : DotDims.WF S1048576x2 S2x32 S1048576x32 [1] [0] [0] [1] [] []
  dot_S1048576x32_S32x32_S1048576x32_1_0_0_1_n_n_wf : DotDims.WF S1048576x32 S32x32 S1048576x32 [1] [0] [0] [1] [] []
  dot_S1048576x32_S32x1_S1048576x1_1_0_0_1_n_n_wf : DotDims.WF S1048576x32 S32x1 S1048576x1 [1] [0] [0] [1] [] []

variable [Facts₀]

def dot_S1048576x2_S2x32_S1048576x32_1_0_0_1_n_n : DotDims S1048576x2 S2x32 S1048576x32 where
  lhsContracting := [1]
  rhsContracting := [0]
  lhsNonContracting := [0]
  rhsNonContracting := [1]
  lhsBatch := []
  rhsBatch := []
  wf := dot_S1048576x2_S2x32_S1048576x32_1_0_0_1_n_n_wf
def dot_S1048576x32_S32x32_S1048576x32_1_0_0_1_n_n : DotDims S1048576x32 S32x32 S1048576x32 where
  lhsContracting := [1]
  rhsContracting := [0]
  lhsNonContracting := [0]
  rhsNonContracting := [1]
  lhsBatch := []
  rhsBatch := []
  wf := dot_S1048576x32_S32x32_S1048576x32_1_0_0_1_n_n_wf
def dot_S1048576x32_S32x1_S1048576x1_1_0_0_1_n_n : DotDims S1048576x32 S32x1 S1048576x1 where
  lhsContracting := [1]
  rhsContracting := [0]
  lhsNonContracting := [0]
  rhsNonContracting := [1]
  lhsBatch := []
  rhsBatch := []
  wf := dot_S1048576x32_S32x1_S1048576x1_1_0_0_1_n_n_wf

class Facts : Prop extends Facts₀ where

variable [Facts]
-- ==== Proof.RowStep.lean ====
/-
  One Runge–Kutta step of dγ/dt = f(ε, γ) · (ε − γ), per row, over the extended reals.

  A row carries five numbers: the strain at the start, the middle and the end of the step (e0, e1, e2), the step
  length dt, and the state γ. The rate f is a three-layer network evaluated on the pair (ε, γ):

    hidden1 j = tanh (ε · W1[0, j] + γ · W1[1, j] + b1[j])                 32 units
    hidden2 j = tanh (Σ_k hidden1 k · W2[k, j] + b2[j])                    32 units
    readout   = Σ_k hidden2 k · W3[k, 0] + b3[0]
    f         = softplus readout

  and the step is the classical fourth-order scheme

    k1 = dt · f(e0, γ) · (e0 − γ)            γ1 = γ + k1 · ½
    k2 = dt · f(e1, γ1) · (e1 − γ1)          γ2 = γ + k2 · ½
    k3 = dt · f(e1, γ2) · (e1 − γ2)          γ3 = γ + k3
    k4 = dt · f(e2, γ3) · (e2 − γ3)          γ' = γ + (k1 + 2·k2 + 2·k3 + k4) / 6.

  softplus is written max(x, 0) + log1p(exp(−|x − 0|)), the overflow-safe form; the guard for an undefined
  difference x − 0 that both programs carry selects nothing on the extended reals, where every number equals itself.
  The float words ½, 2, 6 and 0 are kept as words: the same word stands on both sides and is never evaluated, except
  the zero word where 0 − a is read as −a.
-/
import Idealize.ShloMosaic.PureOps.Ideal
import Idealize.ShloMosaic.PureOps.Ideal.Laws
import Idealize.ShloMosaic.Lib.ValueIdx

noncomputable section

namespace Cert.GammaStep

open Idealize.ShloMosaic Idealize.ShloMosaic.ValueIdx

/-- The float words of the step, as extended reals. -/
abbrev zeroW : EReal := Ideal.ofBits .f32 0x00000000#32
abbrev halfW : EReal := Ideal.ofBits .f32 0x3F000000#32
abbrev twoW : EReal := Ideal.ofBits .f32 0x40000000#32
abbrev sixW : EReal := Ideal.ofBits .f32 0x40C00000#32

/-- softplus in its overflow-safe form, |d| spelt max d (−d) as the extended reals spell it. -/
def softplus (x : EReal) : EReal :=
  max x zeroW + Ideal.log1p (Ideal.exp (zeroW - max (x - zeroW) (-(x - zeroW))))

/-- No extended real differs from itself: the ordered "not equal" test of a number against itself is the zero bit. -/
theorem cmp_one_self (d : EReal) : Ideal.cmp .one d d = 0#1 := by
  simp [Ideal.cmp]

/-- The same for the unordered twin of the test. -/
theorem cmp_une_self (d : EReal) : Ideal.cmp .une d d = 0#1 := by
  simp [Ideal.cmp]

/-- The guarded softplus with 0 − |d| in the exponent: the guard never fires, what is left is `softplus`. -/
theorem guarded_sub (x : EReal) :
    Scalar.select (Ideal.cmp .one (x - zeroW) (x - zeroW)) (x + zeroW)
      (max x zeroW + Ideal.log1p (Ideal.exp (zeroW - max (x - zeroW) (-(x - zeroW))))) = softplus x := by
  rw [cmp_one_self, select_zero]; rfl

/-- The guarded softplus with −|d| in the exponent: 0 − a is −a on the extended reals. -/
theorem guarded_neg (x : EReal) :
    Scalar.select (Ideal.cmp .une (x - zeroW) (x - zeroW)) (x + zeroW)
      (max x zeroW + Ideal.log1p (Ideal.exp (-(max (x - zeroW) (-(x - zeroW)))))) = softplus x := by
  rw [cmp_une_self, select_zero]
  unfold softplus
  have h : ∀ a : EReal, zeroW - a = -a := fun a => by
    show Ideal.ofBits .f32 0x00000000#32 - a = -a
    rw [Ideal.ofBits_zero_f32, zero_sub]
  rw [h]

/-- First hidden layer at unit `j`, from the pair (ε, γ). -/
def hidden1 (w1 : FVec Ideal ⟨2, ![2, 32]⟩ .f32) (b1 : FVec Ideal ⟨1, ![32]⟩ .f32) (e g : EReal) (j : Fin 32) : EReal :=
  Ideal.tanh (e * w1 (ix2 (0 : Fin 2) j) + g * w1 (ix2 (1 : Fin 2) j) + b1 (ix1 j))

/-- Second hidden layer at unit `j`, from the first layer's 32 activations. -/
def hidden2 (w2 : FVec Ideal ⟨2, ![32, 32]⟩ .f32) (b2 : FVec Ideal ⟨1, ![32]⟩ .f32) (h : Fin 32 → EReal) (j : Fin 32) : EReal :=
  Ideal.tanh ((∑ k : Fin 32, h k * w2 (ix2 k j)) + b2 (ix1 j))

/-- The network's one output before softplus. -/
def readout (w3 : FVec Ideal ⟨2, ![32, 1]⟩ .f32) (b3 : FVec Ideal ⟨1, ![1]⟩ .f32) (h : Fin 32 → EReal) : EReal :=
  (∑ k : Fin 32, h k * w3 (ix2 k (0 : Fin 1))) + b3 (ix1 (0 : Fin 1))

/-- The network's parameters, bundled so that the statements below stay short. -/
structure Net where
  w1 : FVec Ideal ⟨2, ![2, 32]⟩ .f32
  b1 : FVec Ideal ⟨1, ![32]⟩ .f32
  w2 : FVec Ideal ⟨2, ![32, 32]⟩ .f32
  b2 : FVec Ideal ⟨1, ![32]⟩ .f32
  w3 : FVec Ideal ⟨2, ![32, 1]⟩ .f32
  b3 : FVec Ideal ⟨1, ![1]⟩ .f32

/-- The rate f(ε, γ). -/
def rate (N : Net) (e g : EReal) : EReal :=
  softplus (readout N.w3 N.b3 (hidden2 N.w2 N.b2 (hidden1 N.w1 N.b1 e g)))

/-- One slope of the scheme: dt · f(ε, γ) · (ε − γ). -/
def slope (N : Net) (dt e g : EReal) : EReal := dt * rate N e g * (e - g)

/-- One Runge–Kutta step of a row. -/
def step (N : Net) (e0 e1 e2 dt g : EReal) : EReal :=
  g + Ideal.div
    (slope N dt e0 g
      + twoW * slope N dt e1 (g + slope N dt e0 g * halfW)
      + twoW * slope N dt e1 (g + slope N dt e1 (g + slope N dt e0 g * halfW) * halfW)
      + slope N dt e2 (g + slope N dt e1 (g + slope N dt e1 (g + slope N dt e0 g * halfW) * halfW)))
    sixW

/-- The step is a function of its arguments: equal parameters and equal numbers give equal steps. -/
theorem step_congr {N N' : Net} {e0 e1 e2 dt g e0' e1' e2' dt' g' : EReal} (hN : N = N') (h0 : e0 = e0') (h1 : e1 = e1') (h2 : e2 = e2')
    (hd : dt = dt') (hg : g = g') : step N e0 e1 e2 dt g = step N' e0' e1' e2' dt' g' := by
  subst hN h0 h1 h2 hd hg; rfl

/-- The step of row `r` of the whole arrays: the row's four input columns and its state. -/
def stepRow (N : Net) (a0 : FVec Ideal ⟨2, ![1048576, 4]⟩ .f32) (a1 : FVec Ideal ⟨2, ![1048576, 1]⟩ .f32) (r : Fin 1048576) : EReal :=
  step N (a0 (ix2 r (0 : Fin 4))) (a0 (ix2 r (1 : Fin 4))) (a0 (ix2 r (2 : Fin 4))) (a0 (ix2 r (3 : Fin 4))) (a1 (ix2 r (0 : Fin 1)))

/-- The whole new state column: every row stepped, whatever the index's one column. -/
def stepArr (N : Net) (a0 : FVec Ideal ⟨2, ![1048576, 4]⟩ .f32) (a1 : FVec Ideal ⟨2, ![1048576, 1]⟩ .f32) :
    FVec Ideal ⟨2, ![1048576, 1]⟩ .f32 :=
  fun i => stepRow N a0 a1 ⟨(i 0).val, (i 0).isLt⟩

end Cert.GammaStep

end
-- ==== Proof.LibKeepdims.lean ====
/-
  A column of per-row values kept as a rank-2 array with a trailing unit axis, read at an index: what a row reduction
  with the reduced axis kept (a sum over the last axis that stays rank 2) needs on the way back to full width.

    [a] cast to [a, 1]          reads, at (i, u), the operand at i, whatever the unit coordinate u;
    [a, 1] broadcast to [a, b]  reads, at (p, c), the operand's row p at its one column.

  Both are the row-major position argument of the leading-unit-axis forms with the axes exchanged.
-/
import Idealize.ShloMosaic.Lib.ValueIdx
import Idealize.ShloMosaic.Lib.Pipeline.Value

namespace Idealize.ShloMosaic.Keepdims

open Idealize.ShloMosaic Idealize.ShloMosaic.ValueIdx

variable {α : Type}

/-- An `[a]` array cast to `[a, 1]` reads, at `(i, u)`, the operand at `i`: position `i · 1 + u` with `u = 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An `[a, 1]` array broadcast to `[a, b]` reads, at `(p, c)`, the operand's row `p` at its one column. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

end Idealize.ShloMosaic.Keepdims
-- ==== Proof.KernelBlock.lean ====
/-
  One block of 4096 rows under the kernel body, read row by row.

  The body evaluates the three-layer network four times. Each evaluation is the same three pieces of vector
  arithmetic on a [4096, 1] column of strains and a [4096, 1] column of states:
    • the first layer as two broadcast products, ε ⊗ W1[0, :] + γ ⊗ W1[1, :] + b1, then tanh      ([4096, 32]);
    • the two upper layers as matrix products into a zero accumulator, with their biases          ([4096, 1]);
    • the guarded overflow-safe softplus.
  The body's arithmetic is these pieces composed as the Runge–Kutta scheme composes them (`stepBlk`), and at row r
  each piece is the scalar function of RowStep.lean at that row's numbers: a broadcast reads its operand's one row or
  one column, a matrix product into zero is the plain sum over the contracted axis, a narrowing of the float format
  is the identity on the extended reals.
-/
import proofs.«152101_j60790967107630_1_alg».proof.Proof.Gen.KernelIdeal.Frame
import proofs.«152101_j60790967107630_1_alg».proof.Proof.RowStep
import proofs.«152101_j60790967107630_1_alg».proof.Proof.LibKeepdims
import Idealize.ShloMosaic.Lib.ValueLayout
import Idealize.ShloMosaic.Lib.ValueIdx
import Idealize.ShloMosaic.Lib.Pipeline.Value
import Idealize.ShloMosaic.PureOps.Ideal.Laws

noncomputable section

namespace Cert.KernelIdeal.Block

open Cert.KernelIdeal Cert.KernelIdeal.Gen Idealize.ShloMosaic Idealize.ShloMosaic.ValueIdx Idealize.ShloMosaic.Keepdims
open Cert.GammaStep

/-! ## The pieces, at any float instance -/

section Pieces

variable {F : FTy → Type} [FloatOps F]

/-- First layer on a block: tanh (ε ⊗ wa + γ ⊗ wb + b1), narrowed for the matrix unit. -/
def firstLayer (e g : FVec F S4096x1 .f32) (wa wb : FVec F S1x32 .f32) (b1 : Vec F S32 .f32) : FVec F S4096x32 .bf16 :=
  truncf .bf16 (tanh (addf (addf (mulf (broadcastTo S4096x32 e broadcasts_S4096x1_S4096x32) (broadcastTo S4096x32 wa broadcasts_S1x32_S4096x32))
      (mulf (broadcastTo S4096x32 g broadcasts_S4096x1_S4096x32) (broadcastTo S4096x32 wb broadcasts_S1x32_S4096x32)))
    (broadcastTo S4096x32 (shapeCast S1x32 b1 shapeCasts_S32_S1x32) broadcasts_S1x32_S4096x32))) bitsLt_bf16_f32

/-- Second hidden layer and readout on a block, from the first layer's activations. -/
def upperLayers (h1 : FVec F S4096x32 .bf16) (w2 : FVec F S32x32 .bf16) (b2 : Vec F S32 .f32) (w3 : FVec F S32x1 .bf16) (b3 : Vec F S1 .f32) :
    FVec F S4096x1 .f32 :=
  addf (matmul dot_S4096x32_S32x1_S4096x1_1_0_0_1_n_n none
      (truncf .bf16 (tanh (addf (matmul dot_S4096x32_S32x32_S4096x32_1_0_0_1_n_n none h1 w2 (constant S4096x32 .f32 0x00000000#32))
        (broadcastTo S4096x32 (shapeCast S1x32 b2 shapeCasts_S32_S1x32) broadcasts_S1x32_S4096x32))) bitsLt_bf16_f32)
      w3 (constant S4096x1 .f32 0x00000000#32))
    (broadcastTo S4096x1 (shapeCast S1x1 b3 shapeCasts_S1_S1x1) broadcasts_S1x1_S4096x1)

/-- The guarded softplus on a column. -/
def guardedSoftplus (x : FVec F S4096x1 .f32) : FVec F S4096x1 .f32 :=
  select (cmpf .one (subf x (broadcast S4096x1 (Scalar.ofBits .f32 0x00000000#32))) (subf x (broadcast S4096x1 (Scalar.ofBits .f32 0x00000000#32))))
    (addf x (broadcast S4096x1 (Scalar.ofBits .f32 0x00000000#32)))
    (addf (maximumf x (broadcast S4096x1 (Scalar.ofBits .f32 0x00000000#32)))
      (log1p (exp (subf (broadcast S4096x1 (Scalar.ofBits .f32 0x00000000#32)) (absf (subf x (broadcast S4096x1 (Scalar.ofBits .f32 0x00000000#32))))))))

/-- The rate f(ε, γ) on a block. -/
def rateBlk (e g : FVec F S4096x1 .f32) (wa wb : FVec F S1x32 .f32) (b1 : Vec F S32 .f32) (w2 : FVec F S32x32 .bf16) (b2 : Vec F S32 .f32)
    (w3 : FVec F S32x1 .bf16) (b3 : Vec F S1 .f32) : FVec F S4096x1 .f32 :=
  guardedSoftplus (upperLayers (firstLayer e g wa wb b1) w2 b2 w3 b3)

/-- One slope dt · f(ε, γ) · (ε − γ) on a block. -/
def slopeBlk (dt e g : FVec F S4096x1 .f32) (wa wb : FVec F S1x32 .f32) (b1 : Vec F S32 .f32) (w2 : FVec F S32x32 .bf16) (b2 : Vec F S32 .f32)
    (w3 : FVec F S32x1 .bf16) (b3 : Vec F S1 .f32) : FVec F S4096x1 .f32 :=
  mulf (mulf dt (rateBlk e g wa wb b1 w2 b2 w3 b3)) (subf e g)

/-- The whole step on a block, from the block of the five columns and the parameters. -/
def stepBlk (x0 : Vec F S4096x4 .f32) (x1 : Vec F S4096x1 .f32) (x2 : Vec F S2x32 .f32) (x3 : Vec F S32 .f32) (x4 : Vec F S32x32 .f32)
    (x5 : Vec F S32 .f32) (x6 : Vec F S32x1 .f32) (x7 : Vec F S1 .f32) : FVec F S4096x1 .f32 :=
  let s := fun (e g : FVec F S4096x1 .f32) => slopeBlk (k0_pay5 x0) e g (k0_pay6 x2) (k0_pay7 x2) x3 (k0_pay8 x4) x5 (k0_pay9 x6) x7
  let k1 := s (k0_pay2 x0) x1
  let k2 := s (k0_pay3 x0) (addf x1 (mulf k1 (broadcast S4096x1 (Scalar.ofBits .f32 0x3F000000#32))))
  let k3 := s (k0_pay3 x0) (addf x1 (mulf k2 (broadcast S4096x1 (Scalar.ofBits .f32 0x3F000000#32))))
  let k4 := s (k0_pay4 x0) (addf x1 k3)
  addf x1 (divf (addf (addf (addf k1 (mulf (broadcast S4096x1 (Scalar.ofBits .f32 0x40000000#32)) k2))
      (mulf (broadcast S4096x1 (Scalar.ofBits .f32 0x40000000#32)) k3)) k4)
    (broadcast S4096x1 (Scalar.ofBits .f32 0x40C00000#32)))

private theorem hz2 : (![0, 0] : Fin 2 → Nat) = fun _ => 0 := by
  funext a; match a with | ⟨0, _⟩ => rfl | ⟨1, _⟩ => rfl
private theorem hz1 : (![0] : Fin 1 → Nat) = fun _ => 0 := by
  funext a; match a with | ⟨0, _⟩ => rfl

set_option maxRecDepth 65536 in
/-- What the body leaves in the output block is `stepBlk` of the input blocks: the one store covers the block, the
    loads read whole blocks, and the payloads are the pieces above composed. -/
theorem out0_8_eq (x0 : Vec F S4096x4 .f32) (x1 : Vec F S4096x1 .f32) (x2 : Vec F S2x32 .f32) (x3 : Vec F S32 .f32) (x4 : Vec F S32x32 .f32)
    (x5 : Vec F S32 .f32) (x6 : Vec F S32x1 .f32) (x7 : Vec F S1 .f32) :
    out0_8 x0 x1 x2 x3 x4 x5 x6 x7 = stepBlk x0 x1 x2 x3 x4 x5 x6 x7 := by
  unfold out0_8
  rw [View.canon_unit_zero hz2]
  simp only [View.ld_unit_zero (S := S4096x4) hz2, View.ld_unit_zero (S := S4096x1) hz2, View.ld_unit_zero (S := S2x32) hz2,
    View.ld_unit_zero (S := S32x32) hz2, View.ld_unit_zero (S := S32x1) hz2, View.ld_unit_zero (S := S32) hz1, View.ld_unit_zero (S := S1) hz1]
  rfl

end Pieces

/-! ## The pieces at a row, on the extended reals -/

theorem tanh_apply {s : Shape} {φ : FTy} (a : FVec Ideal s φ) (i : s.Idx) : tanh a i = Ideal.tanh (a i) := rfl

theorem lhsA_0 (i : S4096x32.Idx) (q : dot_S4096x32_S32x32_S4096x32_1_0_0_1_n_n.contr.Idx) : (dot_S4096x32_S32x32_S4096x32_1_0_0_1_n_n.lhsIdx i q 0).val = (i 0).val := by
  unfold DotDims.lhsIdx
  rw [dif_neg (show ¬(0 : Fin S4096x32.rank) ∈ dot_S4096x32_S32x32_S4096x32_1_0_0_1_n_n.lhsBatch by decide), dif_pos (show (0 : Fin S4096x32.rank) ∈ dot_S4096x32_S32x32_S4096x32_1_0_0_1_n_n.lhsNonContracting by decide)]
  rfl
theorem lhsA_1 (i : S4096x32.Idx) (q : dot_S4096x32_S32x32_S4096x32_1_0_0_1_n_n.contr.Idx) : (dot_S4096x32_S32x32_S4096x32_1_0_0_1_n_n.lhsIdx i q 1).val = (q ⟨0, by decide⟩).val :=
  dot_S4096x32_S32x32_S4096x32_1_0_0_1_n_n.lhsIdx_val_of_single rfl i q
theorem rhsA_0 (i : S4096x32.Idx) (q : dot_S4096x32_S32x32_S4096x32_1_0_0_1_n_n.contr.Idx) : (dot_S4096x32_S32x32_S4096x32_1_0_0_1_n_n.rhsIdx i q 0).val = (q ⟨0, by decide⟩).val :=
  dot_S4096x32_S32x32_S4096x32_1_0_0_1_n_n.rhsIdx_val_of_single rfl i q
theorem rhsA_1 (i : S4096x32.Idx) (q : dot_S4096x32_S32x32_S4096x32_1_0_0_1_n_n.contr.Idx) : (dot_S4096x32_S32x32_S4096x32_1_0_0_1_n_n.rhsIdx i q 1).val = (i 1).val := by
  unfold DotDims.rhsIdx
  rw [dif_neg (show ¬(1 : Fin S32x32.rank) ∈ dot_S4096x32_S32x32_S4096x32_1_0_0_1_n_n.rhsBatch by decide), dif_pos (show (1 : Fin S32x32.rank) ∈ dot_S4096x32_S32x32_S4096x32_1_0_0_1_n_n.rhsNonContracting by decide)]
  rfl

theorem lhsB_0 (i : S4096x1.Idx) (q : dot_S4096x32_S32x1_S4096x1_1_0_0_1_n_n.contr.Idx) : (dot_S4096x32_S32x1_S4096x1_1_0_0_1_n_n.lhsIdx i q 0).val = (i 0).val := by
  unfold DotDims.lhsIdx
  rw [dif_neg (show ¬(0 : Fin S4096x32.rank) ∈ dot_S4096x32_S32x1_S4096x1_1_0_0_1_n_n.lhsBatch by decide), dif_pos (show (0 : Fin S4096x32.rank) ∈ dot_S4096x32_S32x1_S4096x1_1_0_0_1_n_n.lhsNonContracting by decide)]
  rfl
theorem lhsB_1 (i : S4096x1.Idx) (q : dot_S4096x32_S32x1_S4096x1_1_0_0_1_n_n.contr.Idx) : (dot_S4096x32_S32x1_S4096x1_1_0_0_1_n_n.lhsIdx i q 1).val = (q ⟨0, by decide⟩).val :=
  dot_S4096x32_S32x1_S4096x1_1_0_0_1_n_n.lhsIdx_val_of_single rfl i q
theorem rhsB_0 (i : S4096x1.Idx) (q : dot_S4096x32_S32x1_S4096x1_1_0_0_1_n_n.contr.Idx) : (dot_S4096x32_S32x1_S4096x1_1_0_0_1_n_n.rhsIdx i q 0).val = (q ⟨0, by decide⟩).val :=
  dot_S4096x32_S32x1_S4096x1_1_0_0_1_n_n.rhsIdx_val_of_single rfl i q
theorem rhsB_1 (i : S4096x1.Idx) (q : dot_S4096x32_S32x1_S4096x1_1_0_0_1_n_n.contr.Idx) : (dot_S4096x32_S32x1_S4096x1_1_0_0_1_n_n.rhsIdx i q 1).val = (i 1).val := by
  unfold DotDims.rhsIdx
  rw [dif_neg (show ¬(1 : Fin S32x1.rank) ∈ dot_S4096x32_S32x1_S4096x1_1_0_0_1_n_n.rhsBatch by decide), dif_pos (show (1 : Fin S32x1.rank) ∈ dot_S4096x32_S32x1_S4096x1_1_0_0_1_n_n.rhsNonContracting by decide)]
  rfl

/-- The [4096, 32] · [32, 32] product into zero, at (r, j): the sum over the 32 contracted units. -/
theorem matmulA_apply (l : FVec Ideal S4096x32 .bf16) (w : FVec Ideal S32x32 .bf16) (r : Fin 4096) (j : Fin 32) :
    matmul dot_S4096x32_S32x32_S4096x32_1_0_0_1_n_n none l w (constant (F := Ideal) S4096x32 .f32 0x00000000#32) (ix2 r j) = ∑ k : Fin 32, l (ix2 r k) * w (ix2 k j) := by
  simp only [matmul]
  rw [Ideal.matmul_constant_zero_apply, ← Equiv.sum_comp (ValueIdx.contrEquiv1 dot_S4096x32_S32x32_S4096x32_1_0_0_1_n_n 32 rfl rfl).symm]
  refine Finset.sum_congr rfl fun k _ => ?_
  have hk := ValueIdx.contrEquiv1_symm_val dot_S4096x32_S32x32_S4096x32_1_0_0_1_n_n 32 rfl rfl k
  have el : dot_S4096x32_S32x32_S4096x32_1_0_0_1_n_n.lhsIdx (ix2 r j) ((ValueIdx.contrEquiv1 dot_S4096x32_S32x32_S4096x32_1_0_0_1_n_n 32 rfl rfl).symm k) = ix2 r k := funext fun a => Fin.ext (by
    match a with
    | ⟨0, _⟩ => exact lhsA_0 _ _
    | ⟨1, _⟩ => exact (lhsA_1 _ _).trans hk)
  have er : dot_S4096x32_S32x32_S4096x32_1_0_0_1_n_n.rhsIdx (ix2 r j) ((ValueIdx.contrEquiv1 dot_S4096x32_S32x32_S4096x32_1_0_0_1_n_n 32 rfl rfl).symm k) = ix2 k j := funext fun a => Fin.ext (by
    match a with
    | ⟨0, _⟩ => exact (rhsA_0 _ _).trans hk
    | ⟨1, _⟩ => exact rhsA_1 _ _)
  rw [el, er]

/-- The [4096, 32] · [32, 1] product into zero, at (r, 0). -/
theorem matmulB_apply (l : FVec Ideal S4096x32 .bf16) (w : FVec Ideal S32x1 .bf16) (r : Fin 4096) (j : Fin 1) :
    matmul dot_S4096x32_S32x1_S4096x1_1_0_0_1_n_n none l w (constant (F := Ideal) S4096x1 .f32 0x00000000#32) (ix2 r j) = ∑ k : Fin 32, l (ix2 r k) * w (ix2 k j) := by
  simp only [matmul]
  rw [Ideal.matmul_constant_zero_apply, ← Equiv.sum_comp (ValueIdx.contrEquiv1 dot_S4096x32_S32x1_S4096x1_1_0_0_1_n_n 32 rfl rfl).symm]
  refine Finset.sum_congr rfl fun k _ => ?_
  have hk := ValueIdx.contrEquiv1_symm_val dot_S4096x32_S32x1_S4096x1_1_0_0_1_n_n 32 rfl rfl k
  have el : dot_S4096x32_S32x1_S4096x1_1_0_0_1_n_n.lhsIdx (ix2 r j) ((ValueIdx.contrEquiv1 dot_S4096x32_S32x1_S4096x1_1_0_0_1_n_n 32 rfl rfl).symm k) = ix2 r k := funext fun a => Fin.ext (by
    match a with
    | ⟨0, _⟩ => exact lhsB_0 _ _
    | ⟨1, _⟩ => exact (lhsB_1 _ _).trans hk)
  have er : dot_S4096x32_S32x1_S4096x1_1_0_0_1_n_n.rhsIdx (ix2 r j) ((ValueIdx.contrEquiv1 dot_S4096x32_S32x1_S4096x1_1_0_0_1_n_n 32 rfl rfl).symm k) = ix2 k j := funext fun a => Fin.ext (by
    match a with
    | ⟨0, _⟩ => exact (rhsB_0 _ _).trans hk
    | ⟨1, _⟩ => exact rhsB_1 _ _)
  rw [el, er]

/-- The first layer at row r, unit j. -/
theorem firstLayer_apply (e g : FVec Ideal S4096x1 .f32) (wa wb : FVec Ideal S1x32 .f32) (b1 : Vec Ideal S32 .f32) (r : Fin 4096) (j : Fin 32) :
    firstLayer (F := Ideal) e g wa wb b1 (ix2 r j)
      = Ideal.tanh (e (ix2 r (0 : Fin 1)) * wa (ix2 (0 : Fin 1) j) + g (ix2 r (0 : Fin 1)) * wb (ix2 (0 : Fin 1) j) + b1 (ix1 j)) := by
  unfold firstLayer
  simp only [truncf_apply, tanh_apply, addf_apply, mulf_apply, broadcastTo_a1_ab_apply, broadcastTo_1b_ab_apply, shapeCast_a_1a_apply]

/-- The upper layers at row r. -/
theorem upperLayers_apply (h1 : FVec Ideal S4096x32 .bf16) (w2 : FVec Ideal S32x32 .bf16) (b2 : Vec Ideal S32 .f32) (w3 : FVec Ideal S32x1 .bf16)
    (b3 : Vec Ideal S1 .f32) (r : Fin 4096) :
    upperLayers (F := Ideal) h1 w2 b2 w3 b3 (ix2 r (0 : Fin 1))
      = (∑ k : Fin 32, Ideal.tanh ((∑ k' : Fin 32, h1 (ix2 r k') * w2 (ix2 k' k)) + b2 (ix1 k)) * w3 (ix2 k (0 : Fin 1))) + b3 (ix1 (0 : Fin 1)) := by
  unfold upperLayers
  rw [addf_apply, matmulB_apply]
  simp only [truncf_apply, tanh_apply, addf_apply, matmulA_apply, broadcastTo_1b_ab_apply, shapeCast_a_1a_apply]

/-- The guarded softplus at an index is `softplus`. -/
theorem guardedSoftplus_apply (x : FVec Ideal S4096x1 .f32) (i : S4096x1.Idx) : guardedSoftplus (F := Ideal) x i = softplus (x i) :=
  guarded_sub (x i)

end Cert.KernelIdeal.Block

end
-- ==== Proof.KernelRow.lean ====
/-
  The kernel body's block at a row: the Runge–Kutta step of that row.

  The four columns of the input block are its slices along the second axis, the two rows of W1 its slices along the
  first; at the extended reals the narrowed copies of W2 and W3 are W2 and W3. With these read at an index, each rate,
  each slope and the whole step on a block are, at row r, the scalar functions of RowStep.lean at the row's five numbers.
-/
import proofs.«152101_j60790967107630_1_alg».proof.Proof.KernelBlock

noncomputable section

namespace Cert.KernelIdeal.Block

open Cert.KernelIdeal Cert.KernelIdeal.Gen Idealize.ShloMosaic Idealize.ShloMosaic.ValueIdx Idealize.ShloMosaic.Keepdims
open Cert.GammaStep

/-- The parameters as the network they are. -/
abbrev net (x2 : Vec Ideal S2x32 .f32) (x3 : Vec Ideal S32 .f32) (x4 : Vec Ideal S32x32 .f32) (x5 : Vec Ideal S32 .f32)
    (x6 : Vec Ideal S32x1 .f32) (x7 : Vec Ideal S1 .f32) : Net := ⟨x2, x3, x4, x5, x6, x7⟩

/-- Column 0 of the block: the strain at the start of the step. -/
theorem pay2_apply (x0 : Vec Ideal S4096x4 .f32) (r : Fin 4096) : k0_pay2 x0 (ix2 r (0 : Fin 1)) = x0 (ix2 r (0 : Fin 4)) :=
  slice2_axis1_apply 0 x0 slices_S4096x4_o0_0_S4096x1 r 0 0 rfl
/-- Column 1: the strain at the middle. -/
theorem pay3_apply (x0 : Vec Ideal S4096x4 .f32) (r : Fin 4096) : k0_pay3 x0 (ix2 r (0 : Fin 1)) = x0 (ix2 r (1 : Fin 4)) :=
  slice2_axis1_apply 1 x0 slices_S4096x4_o0_1_S4096x1 r 0 1 rfl
/-- Column 2: the strain at the end. -/
theorem pay4_apply (x0 : Vec Ideal S4096x4 .f32) (r : Fin 4096) : k0_pay4 x0 (ix2 r (0 : Fin 1)) = x0 (ix2 r (2 : Fin 4)) :=
  slice2_axis1_apply 2 x0 slices_S4096x4_o0_2_S4096x1 r 0 2 rfl
/-- Column 3: the step length. -/
theorem pay5_apply (x0 : Vec Ideal S4096x4 .f32) (r : Fin 4096) : k0_pay5 x0 (ix2 r (0 : Fin 1)) = x0 (ix2 r (3 : Fin 4)) :=
  slice2_axis1_apply 3 x0 slices_S4096x4_o0_3_S4096x1 r 0 3 rfl
/-- Row 0 of W1: the strain's weights. -/
theorem pay6_apply (x2 : Vec Ideal S2x32 .f32) (j : Fin 32) : k0_pay6 x2 (ix2 (0 : Fin 1) j) = x2 (ix2 (0 : Fin 2) j) :=
  slice2_axis0_apply 0 x2 slices_S2x32_o0_0_S1x32 0 j 0 rfl
/-- Row 1 of W1: the state's weights. -/
theorem pay7_apply (x2 : Vec Ideal S2x32 .f32) (j : Fin 32) : k0_pay7 x2 (ix2 (0 : Fin 1) j) = x2 (ix2 (1 : Fin 2) j) :=
  slice2_axis0_apply 1 x2 slices_S2x32_o1_0_S1x32 0 j 1 rfl
/-- W2 narrowed is W2. -/
theorem pay8_apply (x4 : Vec Ideal S32x32 .f32) (i : S32x32.Idx) : k0_pay8 x4 i = x4 i := rfl
/-- W3 narrowed is W3. -/
theorem pay9_apply (x6 : Vec Ideal S32x1 .f32) (i : S32x1.Idx) : k0_pay9 x6 i = x6 i := rfl

/-- The rate on a block at row r. -/
theorem rateBlk_apply (e g : FVec Ideal S4096x1 .f32) (x2 : Vec Ideal S2x32 .f32) (x3 : Vec Ideal S32 .f32) (x4 : Vec Ideal S32x32 .f32)
    (x5 : Vec Ideal S32 .f32) (x6 : Vec Ideal S32x1 .f32) (x7 : Vec Ideal S1 .f32) (r : Fin 4096) :
    rateBlk (F := Ideal) e g (k0_pay6 x2) (k0_pay7 x2) x3 (k0_pay8 x4) x5 (k0_pay9 x6) x7 (ix2 r (0 : Fin 1))
      = rate (net x2 x3 x4 x5 x6 x7) (e (ix2 r (0 : Fin 1))) (g (ix2 r (0 : Fin 1))) := by
  unfold rateBlk
  rw [guardedSoftplus_apply, upperLayers_apply]
  simp only [firstLayer_apply, pay6_apply, pay7_apply, pay8_apply, pay9_apply]
  rfl

/-- A slope on a block at row r. -/
theorem slopeBlk_apply (dt e g : FVec Ideal S4096x1 .f32) (x2 : Vec Ideal S2x32 .f32) (x3 : Vec Ideal S32 .f32) (x4 : Vec Ideal S32x32 .f32)
    (x5 : Vec Ideal S32 .f32) (x6 : Vec Ideal S32x1 .f32) (x7 : Vec Ideal S1 .f32) (r : Fin 4096) :
    slopeBlk (F := Ideal) dt e g (k0_pay6 x2) (k0_pay7 x2) x3 (k0_pay8 x4) x5 (k0_pay9 x6) x7 (ix2 r (0 : Fin 1))
      = slope (net x2 x3 x4 x5 x6 x7) (dt (ix2 r (0 : Fin 1))) (e (ix2 r (0 : Fin 1))) (g (ix2 r (0 : Fin 1))) := by
  unfold slopeBlk
  rw [mulf_apply, mulf_apply, subf_apply, rateBlk_apply]
  rfl

/-- The step on a block at row r is the step of the row's five numbers. -/
theorem stepBlk_apply (x0 : Vec Ideal S4096x4 .f32) (x1 : Vec Ideal S4096x1 .f32) (x2 : Vec Ideal S2x32 .f32) (x3 : Vec Ideal S32 .f32)
    (x4 : Vec Ideal S32x32 .f32) (x5 : Vec Ideal S32 .f32) (x6 : Vec Ideal S32x1 .f32) (x7 : Vec Ideal S1 .f32) (r : Fin 4096) :
    stepBlk (F := Ideal) x0 x1 x2 x3 x4 x5 x6 x7 (ix2 r (0 : Fin 1))
      = step (net x2 x3 x4 x5 x6 x7) (x0 (ix2 r (0 : Fin 4))) (x0 (ix2 r (1 : Fin 4))) (x0 (ix2 r (2 : Fin 4))) (x0 (ix2 r (3 : Fin 4)))
          (x1 (ix2 r (0 : Fin 1))) := by
  unfold stepBlk
  simp only [addf_apply, mulf_apply, divf_apply, broadcast_apply, slopeBlk_apply, pay2_apply, pay3_apply, pay4_apply, pay5_apply]
  rfl

/-- The same at any index of the block: the index's row decides, its one column is column 0. -/
theorem stepBlk_row (x0 : Vec Ideal S4096x4 .f32) (x1 : Vec Ideal S4096x1 .f32) (x2 : Vec Ideal S2x32 .f32) (x3 : Vec Ideal S32 .f32)
    (x4 : Vec Ideal S32x32 .f32) (x5 : Vec Ideal S32 .f32) (x6 : Vec Ideal S32x1 .f32) (x7 : Vec Ideal S1 .f32) (y : S4096x1.Idx) :
    stepBlk (F := Ideal) x0 x1 x2 x3 x4 x5 x6 x7 y
      = step (net x2 x3 x4 x5 x6 x7) (x0 (ix2 (⟨(y 0).val, (y 0).isLt⟩ : Fin 4096) (0 : Fin 4))) (x0 (ix2 (⟨(y 0).val, (y 0).isLt⟩ : Fin 4096) (1 : Fin 4)))
          (x0 (ix2 (⟨(y 0).val, (y 0).isLt⟩ : Fin 4096) (2 : Fin 4))) (x0 (ix2 (⟨(y 0).val, (y 0).isLt⟩ : Fin 4096) (3 : Fin 4)))
          (x1 (ix2 (⟨(y 0).val, (y 0).isLt⟩ : Fin 4096) (0 : Fin 1))) := by
  obtain ⟨p, q, rfl⟩ : ∃ (p : Fin 4096) (q : Fin 1), y = ix2 p q := ⟨y 0, y 1, eq_ix2 y⟩
  obtain rfl : q = 0 := Subsingleton.elim _ _
  exact stepBlk_apply x0 x1 x2 x3 x4 x5 x6 x7 p

end Cert.KernelIdeal.Block

end
-- ==== Proof.KernelArray.lean ====
/-
  From blocks to the array: after the kernel's run the output column is the step of every row.

  Grid point t stages rows 4096·t … 4096·t + 4095 of the input and of the state, and the whole of each parameter
  array; it writes back rows 4096·t … of the output. The block it writes is the step of its rows (KernelRow.lean), so it
  is block t of the whole stepped column; the 256 blocks tile the 1048576 rows, row r lying in block r / 4096.
-/
import proofs.«152101_j60790967107630_1_alg».proof.Proof.Gen.KernelIdeal.Value
import proofs.«152101_j60790967107630_1_alg».proof.Proof.KernelRow

noncomputable section

namespace Cert.KernelIdeal.Whole

open Cert.KernelIdeal Cert.KernelIdeal.Gen Cert.KernelIdeal.Block Idealize.ShloMosaic Idealize.ShloMosaic.ValueIdx Idealize.ShloMosaic.TcCoe Idealize.SL.Sem
open Idealize.ShloMosaic.Pipeline (Dat)
open Cert.GammaStep

variable (m : (ℓ : Loc nD τ sig) → Buf (Elt Ideal) ℓ) (ρ : Dev nD → PrngReg)

/-! ## Which block each point stages -/

/-- The moving windows (input, state, output) are at block t on the row axis and block 0 on the column axis. -/
theorem idx_rows : ∀ t : Fin cfg0.N, win0_0.index t (0 : Fin 2) = t.val ∧ win0_0.index t (1 : Fin 2) = 0
    ∧ win0_1.index t (0 : Fin 2) = t.val ∧ win0_1.index t (1 : Fin 2) = 0
    ∧ win0_8.index t (0 : Fin 2) = t.val ∧ win0_8.index t (1 : Fin 2) = 0 :=
  (by decide +kernel : ∀ t : Fin grid0.N, _)

/-- The parameter windows stay at block 0. -/
theorem idx_w2 : ∀ t : Fin cfg0.N, win0_2.index t (0 : Fin 2) = 0 ∧ win0_2.index t (1 : Fin 2) = 0 := (by decide +kernel : ∀ t : Fin grid0.N, _)
theorem idx_w3 : ∀ t : Fin cfg0.N, win0_3.index t (0 : Fin 1) = 0 := (by decide +kernel : ∀ t : Fin grid0.N, _)
theorem idx_w4 : ∀ t : Fin cfg0.N, win0_4.index t (0 : Fin 2) = 0 ∧ win0_4.index t (1 : Fin 2) = 0 := (by decide +kernel : ∀ t : Fin grid0.N, _)
theorem idx_w5 : ∀ t : Fin cfg0.N, win0_5.index t (0 : Fin 1) = 0 := (by decide +kernel : ∀ t : Fin grid0.N, _)
theorem idx_w6 : ∀ t : Fin cfg0.N, win0_6.index t (0 : Fin 2) = 0 ∧ win0_6.index t (1 : Fin 2) = 0 := (by decide +kernel : ∀ t : Fin grid0.N, _)
theorem idx_w7 : ∀ t : Fin cfg0.N, win0_7.index t (0 : Fin 1) = 0 := (by decide +kernel : ∀ t : Fin grid0.N, _)

/-! ## The staged blocks, read -/

/-- The input block at point t is rows 4096·t … of the input. -/
theorem iblk0_apply (c : Dev nD) (t : Fin cfg0.N) (x : S4096x4.Idx) (k : S1048576x4.Idx)
    (hk0 : (k 0).val = t.val * 4096 + (x 0).val) (hk1 : (k 1).val = (x 1).val) :
    (iblk m c 0 t : Vec Ideal S4096x4 .f32) x = (V m c main_arg0 : S1048576x4.Idx → Elt Ideal .f32) k := by
  obtain ⟨h0, h1, -⟩ := idx_rows t
  unfold iblk
  rw [View.read_apply]
  show V m c main_arg0 _ = V m c main_arg0 k
  congr 1
  funext a
  apply Fin.ext
  match a with
  | ⟨0, _⟩ => show win0_0.index t 0 * 4096 + 1 * (x 0).val = (k 0).val; rw [h0, hk0]; omega
  | ⟨1, _⟩ => show win0_0.index t 1 * 4 + 1 * (x 1).val = (k 1).val; rw [h1, hk1]; omega

/-- The state block at point t is rows 4096·t … of the state. -/
theorem iblk1_apply (c : Dev nD) (t : Fin cfg0.N) (x : S4096x1.Idx) (k : S1048576x1.Idx)
    (hk0 : (k 0).val = t.val * 4096 + (x 0).val) (hk1 : (k 1).val = (x 1).val) :
    (iblk m c 1 t : Vec Ideal S4096x1 .f32) x = (V m c main_arg1 : S1048576x1.Idx → Elt Ideal .f32) k := by
  obtain ⟨-, -, h0, h1, -⟩ := idx_rows t
  unfold iblk
  rw [View.read_apply]
  show V m c main_arg1 _ = V m c main_arg1 k
  congr 1
  funext a
  apply Fin.ext
  match a with
  | ⟨0, _⟩ => show win0_1.index t 0 * 4096 + 1 * (x 0).val = (k 0).val; rw [h0, hk0]; omega
  | ⟨1, _⟩ => show win0_1.index t 1 * 1 + 1 * (x 1).val = (k 1).val; rw [h1, hk1]; omega

/-- Window 2's one block is the whole of its array. -/
theorem iblk2_eq (c : Dev nD) (t : Fin cfg0.N) : (iblk m c 2 t : Vec Ideal S2x32 .f32) = V m c main_arg2 := by
  funext x
  unfold iblk
  rw [View.read_apply]
  show V m c main_arg2 _ = V m c main_arg2 x
  congr 1
  funext a
  apply Fin.ext
  match a with
    | ⟨0, _⟩ => show win0_2.index t 0 * 2 + 1 * (x 0).val = (x 0).val; rw [(idx_w2 t).1]; omega
    | ⟨1, _⟩ => show win0_2.index t 1 * 32 + 1 * (x 1).val = (x 1).val; rw [(idx_w2 t).2]; omega

/-- Window 3's one block is the whole of its array. -/
theorem iblk3_eq (c : Dev nD) (t : Fin cfg0.N) : (iblk m c 3 t : Vec Ideal S32 .f32) = V m c main_arg3 := by
  funext x
  unfold iblk
  rw [View.read_apply]
  show V m c main_arg3 _ = V m c main_arg3 x
  congr 1
  funext a
  apply Fin.ext
  match a with
    | ⟨0, _⟩ => show win0_3.index t 0 * 32 + 1 * (x 0).val = (x 0).val; rw [idx_w3 t]; omega

/-- Window 4's one block is the whole of its array. -/
theorem iblk4_eq (c : Dev nD) (t : Fin cfg0.N) : (iblk m c 4 t : Vec Ideal S32x32 .f32) = V m c main_arg4 := by
  funext x
  unfold iblk
  rw [View.read_apply]
  show V m c main_arg4 _ = V m c main_arg4 x
  congr 1
  funext a
  apply Fin.ext
  match a with
    | ⟨0, _⟩ => show win0_4.index t 0 * 32 + 1 * (x 0).val = (x 0).val; rw [(idx_w4 t).1]; omega
    | ⟨1, _⟩ => show win0_4.index t 1 * 32 + 1 * (x 1).val = (x 1).val; rw [(idx_w4 t).2]; omega

/-- Window 5's one block is the whole of its array. -/
theorem iblk5_eq (c : Dev nD) (t : Fin cfg0.N) : (iblk m c 5 t : Vec Ideal S32 .f32) = V m c main_arg5 := by
  funext x
  unfold iblk
  rw [View.read_apply]
  show V m c main_arg5 _ = V m c main_arg5 x
  congr 1
  funext a
  apply Fin.ext
  match a with
    | ⟨0, _⟩ => show win0_5.index t 0 * 32 + 1 * (x 0).val = (x 0).val; rw [idx_w5 t]; omega

/-- Window 6's one block is the whole of its array. -/
theorem iblk6_eq (c : Dev nD) (t : Fin cfg0.N) : (iblk m c 6 t : Vec Ideal S32x1 .f32) = V m c main_arg6 := by
  funext x
  unfold iblk
  rw [View.read_apply]
  show V m c main_arg6 _ = V m c main_arg6 x
  congr 1
  funext a
  apply Fin.ext
  match a with
    | ⟨0, _⟩ => show win0_6.index t 0 * 32 + 1 * (x 0).val = (x 0).val; rw [(idx_w6 t).1]; omega
    | ⟨1, _⟩ => show win0_6.index t 1 * 1 + 1 * (x 1).val = (x 1).val; rw [(idx_w6 t).2]; omega

/-- Window 7's one block is the whole of its array. -/
theorem iblk7_eq (c : Dev nD) (t : Fin cfg0.N) : (iblk m c 7 t : Vec Ideal S1 .f32) = V m c main_arg7 := by
  funext x
  unfold iblk
  rw [View.read_apply]
  show V m c main_arg7 _ = V m c main_arg7 x
  congr 1
  funext a
  apply Fin.ext
  match a with
    | ⟨0, _⟩ => show win0_7.index t 0 * 1 + 1 * (x 0).val = (x 0).val; rw [idx_w7 t]; omega

/-! ## What each point writes back, and the array after the run -/

/-- The whole stepped column, from the arrays as the region finds them. -/
abbrev stepped (c : Dev nD) : Vec Ideal S1048576x1 .f32 :=
  stepArr (net (V m c main_arg2) (V m c main_arg3) (V m c main_arg4) (V m c main_arg5) (V m c main_arg6) (V m c main_arg7))
    (V m c main_arg0) (V m c main_arg1)

/-- Point t writes back block t of the stepped column. -/
theorem flushed8_eq (c : Dev nD) (t : Fin cfg0.N) :
    (dats m 0 c).flushed 8 t = ((cfg0.win 8).blk t).view.read (Elt Ideal) (stepped m c) := by
  show (cfg0.win 8).cut (grid0.coords t) ((dats m 0 c).after 8 t) = _
  rw [after0_8, out0_8_eq]
  funext j
  show stepBlk (F := Ideal) (iblk m c 0 t) (iblk m c 1 t) (iblk m c 2 t) (iblk m c 3 t) (iblk m c 4 t) (iblk m c 5 t) (iblk m c 6 t) (iblk m c 7 t) j
    = stepped m c (((cfg0.win 8).blk t).view.emb j)
  obtain ⟨-, -, -, -, h80, h81⟩ := idx_rows t
  have hrow : ((((cfg0.win 8).blk t).view.emb j) 0).val = t.val * 4096 + (j 0).val := by
    show win0_8.index t 0 * 4096 + 1 * (j 0).val = _
    rw [h80]; omega
  refine (stepBlk_row (iblk m c 0 t) (iblk m c 1 t) (iblk m c 2 t) (iblk m c 3 t) (iblk m c 4 t) (iblk m c 5 t) (iblk m c 6 t) (iblk m c 7 t) j).trans ?_
  refine step_congr ?_ ?_ ?_ ?_ ?_ ?_
  · rw [iblk2_eq, iblk3_eq, iblk4_eq, iblk5_eq, iblk6_eq, iblk7_eq]
  · exact iblk0_apply m c t _ _ hrow rfl
  · exact iblk0_apply m c t _ _ hrow rfl
  · exact iblk0_apply m c t _ _ hrow rfl
  · exact iblk0_apply m c t _ _ hrow rfl
  · exact iblk1_apply m c t _ _ hrow rfl

/-- Every row lies in the block of some point: row r in block r / 4096. -/
theorem covered (i : S1048576x1.Idx) : ∃ t : Fin cfg0.N, (cfg0.win 8).flush t = true ∧ i ∈ ((cfg0.win 8).blk t).view.set := by
  have hi0 : (i 0).val < 1048576 := (i 0).isLt
  have hi1 : (i 1).val < 1 := (i 1).isLt
  have hN : cfg0.N = 256 := N_0
  have ht : (i 0).val / 4096 < cfg0.N := by rw [hN]; omega
  obtain ⟨-, -, -, -, h80, h81⟩ := idx_rows ⟨(i 0).val / 4096, ht⟩
  refine ⟨⟨(i 0).val / 4096, ht⟩, flush0_8 _, ?_⟩
  show i ∈ ((View.whole main_v0).slice (win0_8.rect ⟨(i 0).val / 4096, ht⟩)).set
  rw [View.set_slice_whole, Rect.mem_set_unit]
  intro a
  match a with
  | ⟨0, _⟩ =>
    show win0_8.index ⟨(i 0).val / 4096, ht⟩ 0 * 4096 ≤ (i 0).val ∧ (i 0).val < win0_8.index ⟨(i 0).val / 4096, ht⟩ 0 * 4096 + 4096
    rw [h80]; show (i 0).val / 4096 * 4096 ≤ (i 0).val ∧ (i 0).val < (i 0).val / 4096 * 4096 + 4096; omega
  | ⟨1, _⟩ =>
    show win0_8.index ⟨(i 0).val / 4096, ht⟩ 1 * 1 ≤ (i 1).val ∧ (i 1).val < win0_8.index ⟨(i 0).val / 4096, ht⟩ 1 * 1 + 1
    rw [h81]; omega

/-- So the output array ends holding the stepped column. -/
theorem final8 (c : Dev nD) : (dats m 0 c).arrAt 8 cfg0.N = stepped m c :=
  (dats m 0 c).arrAt_eq_of_cover 8 (stepped m c) (fun t _ => flushed8_eq m c t) (covered)

/-- The kernel's run: the output array at the stepped column of the arguments' launch contents, the arguments unchanged. -/
theorem run : θ_run defs (onTc (τ := τ) (main (F := Ideal))) ⟨m, fun _ => 0, ρ⟩ fun r => ∀ c : Dev nD,
      r.2.mem ((c : Thread nD τ).loc main_v0) = stepped m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final8 m c), (h c).2⟩) (Value.run_blocks m ρ)

end Cert.KernelIdeal.Whole

end
-- ==== Proof.RefStages.lean ====
/-
  The reference's host program, piece by piece, and each piece at a row.

  The reference evaluates the network on the pair (ε, γ) joined column by column into a [n, 2] array and multiplied
  by W1 as one matrix product; the upper layers are two more products with their biases broadcast over the rows, and
  softplus is the called function's guarded overflow-safe form, with −|d| in the exponent. The Runge–Kutta scheme then
  composes four such evaluations. The pieces are named here as the program spells them, the scheme's intermediate
  columns k1, γ1, k2, γ2, k3, γ3, k4 each by a name of its own (each is read more than once), and at row r every piece
  is the scalar function of RowStep.lean: a product over the two joined columns is ε · W1[0, j] + γ · W1[1, j].
-/
import proofs.«152101_j60790967107630_1_alg».proof.Proof.Gen.ReferenceIdeal
import proofs.«152101_j60790967107630_1_alg».proof.Proof.RowStep
import Idealize.ShloMosaic.Lib.ValueIdx
import Idealize.ShloMosaic.Lib.Pipeline.Value
import Idealize.ShloMosaic.PureOps.Ideal.Laws

noncomputable section

namespace Cert.ReferenceIdeal.Stages

open Cert.ReferenceIdeal Cert.ReferenceIdeal.Gen Idealize.ShloMosaic Idealize.ShloMosaic.ValueIdx
open Cert.GammaStep

/-! ## The pieces, at any float instance -/

/-- The buffer types of the program, by what they hold. -/
abbrev ColT (F : FTy → Type) := (⟨S1048576x1, .f32⟩ : BufTy).Contents (Elt F)
abbrev InT (F : FTy → Type) := (⟨S1048576x4, .f32⟩ : BufTy).Contents (Elt F)
abbrev HidT (F : FTy → Type) := (⟨S1048576x32, .f32⟩ : BufTy).Contents (Elt F)
abbrev W1T (F : FTy → Type) := (⟨S2x32, .f32⟩ : BufTy).Contents (Elt F)
abbrev B1T (F : FTy → Type) := (⟨S32, .f32⟩ : BufTy).Contents (Elt F)
abbrev W2T (F : FTy → Type) := (⟨S32x32, .f32⟩ : BufTy).Contents (Elt F)
abbrev W3T (F : FTy → Type) := (⟨S32x1, .f32⟩ : BufTy).Contents (Elt F)
abbrev B3T (F : FTy → Type) := (⟨S1, .f32⟩ : BufTy).Contents (Elt F)

section Pieces

variable {F : FTy → Type} [FloatOps F]

/-- A float word over every row. -/
def wordCol (b : BitVec 32) : ColT F := broadcastInDim S1048576x1 ![] bcast_S_S1048576x1 (constant (F := F) S_ .f32 b)

/-- First layer: the pair joined, times W1, plus b1 over the rows, tanh. -/
def firstLayer (e g : ColT F) (x2 : W1T F) (x3 : B1T F) : HidT F :=
  Host.tanh (addf (Host.dotGeneral dot_S1048576x2_S2x32_S1048576x32_1_0_0_1_n_n none
      (concatenate S1048576x2 1 [⟨S1048576x1, e⟩, ⟨S1048576x1, g⟩] concatenates_S1048576x1_S1048576x1_S1048576x2_d1) x2)
    (broadcastInDim S1048576x32 ![0, 1] bcast_S1x32_S1048576x32_0_1 (broadcastInDim S1x32 ![1] bcast_S32_S1x32_1 x3)))

/-- Second hidden layer and readout. -/
def upperLayers (h1 : HidT F) (x4 : W2T F) (x5 : B1T F) (x6 : W3T F) (x7 : B3T F) : ColT F :=
  addf (Host.dotGeneral dot_S1048576x32_S32x1_S1048576x1_1_0_0_1_n_n none
      (Host.tanh (addf (Host.dotGeneral dot_S1048576x32_S32x32_S1048576x32_1_0_0_1_n_n none h1 x4)
        (broadcastInDim S1048576x32 ![0, 1] bcast_S1x32_S1048576x32_0_1 (broadcastInDim S1x32 ![1] bcast_S32_S1x32_1 x5)))) x6)
    (broadcastInDim S1048576x1 ![0, 1] bcast_S1x1_S1048576x1_0_1 (broadcastInDim S1x1 ![1] bcast_S1_S1x1_1 x7))

/-- The called softplus: guarded, overflow-safe. -/
def guardedSoftplus (x : ColT F) : ColT F :=
  select (cmpf .une (subf x (wordCol 0x00000000#32)) (subf x (wordCol 0x00000000#32))) (addf x (wordCol 0x00000000#32))
    (addf (maximumf x (wordCol 0x00000000#32)) (Host.log1p (Host.exp (Host.negf (Host.absf (subf x (wordCol 0x00000000#32)))))))

/-- The rate f(ε, γ) over the rows. -/
def rateV (e g : ColT F) (x2 : W1T F) (x3 : B1T F) (x4 : W2T F) (x5 : B1T F) (x6 : W3T F) (x7 : B3T F) : ColT F :=
  guardedSoftplus (upperLayers (firstLayer e g x2 x3) x4 x5 x6 x7)

/-- One slope dt · f(ε, γ) · (ε − γ) over the rows. -/
def slopeV (dt e g : ColT F) (x2 : W1T F) (x3 : B1T F) (x4 : W2T F) (x5 : B1T F) (x6 : W3T F) (x7 : B3T F) : ColT F :=
  mulf (mulf dt (rateV e g x2 x3 x4 x5 x6 x7)) (subf e g)

/-- The four columns of the input. -/
def col0 (x0 : InT F) : ColT F := extractStridedSlice S1048576x1 ![0, 0] x0 slices_S1048576x4_S1048576x1_0_0
def col1 (x0 : InT F) : ColT F := extractStridedSlice S1048576x1 ![0, 1] x0 slices_S1048576x4_S1048576x1_0_1
def col2 (x0 : InT F) : ColT F := extractStridedSlice S1048576x1 ![0, 2] x0 slices_S1048576x4_S1048576x1_0_2
def col3 (x0 : InT F) : ColT F := extractStridedSlice S1048576x1 ![0, 3] x0 slices_S1048576x4_S1048576x1_0_3

/-- The scheme's columns, each from the ones before. -/
def k1 (x0 : InT F) (x1 : ColT F) (x2 : W1T F) (x3 : B1T F) (x4 : W2T F) (x5 : B1T F) (x6 : W3T F) (x7 : B3T F) : ColT F := slopeV (col3 x0) (col0 x0) x1 x2 x3 x4 x5 x6 x7
def g1 (x0 : InT F) (x1 : ColT F) (x2 : W1T F) (x3 : B1T F) (x4 : W2T F) (x5 : B1T F) (x6 : W3T F) (x7 : B3T F) : ColT F := addf x1 (mulf (k1 x0 x1 x2 x3 x4 x5 x6 x7) (wordCol 0x3F000000#32))
def k2 (x0 : InT F) (x1 : ColT F) (x2 : W1T F) (x3 : B1T F) (x4 : W2T F) (x5 : B1T F) (x6 : W3T F) (x7 : B3T F) : ColT F := slopeV (col3 x0) (col1 x0) (g1 x0 x1 x2 x3 x4 x5 x6 x7) x2 x3 x4 x5 x6 x7
def g2 (x0 : InT F) (x1 : ColT F) (x2 : W1T F) (x3 : B1T F) (x4 : W2T F) (x5 : B1T F) (x6 : W3T F) (x7 : B3T F) : ColT F := addf x1 (mulf (k2 x0 x1 x2 x3 x4 x5 x6 x7) (wordCol 0x3F000000#32))
def k3 (x0 : InT F) (x1 : ColT F) (x2 : W1T F) (x3 : B1T F) (x4 : W2T F) (x5 : B1T F) (x6 : W3T F) (x7 : B3T F) : ColT F := slopeV (col3 x0) (col1 x0) (g2 x0 x1 x2 x3 x4 x5 x6 x7) x2 x3 x4 x5 x6 x7
def g3 (x0 : InT F) (x1 : ColT F) (x2 : W1T F) (x3 : B1T F) (x4 : W2T F) (x5 : B1T F) (x6 : W3T F) (x7 : B3T F) : ColT F := addf x1 (k3 x0 x1 x2 x3 x4 x5 x6 x7)
def k4 (x0 : InT F) (x1 : ColT F) (x2 : W1T F) (x3 : B1T F) (x4 : W2T F) (x5 : B1T F) (x6 : W3T F) (x7 : B3T F) : ColT F := slopeV (col3 x0) (col2 x0) (g3 x0 x1 x2 x3 x4 x5 x6 x7) x2 x3 x4 x5 x6 x7

/-- The reference's result over the rows. -/
def out (x0 : InT F) (x1 : ColT F) (x2 : W1T F) (x3 : B1T F) (x4 : W2T F) (x5 : B1T F) (x6 : W3T F) (x7 : B3T F) : ColT F :=
  addf x1 (Host.divf (addf (addf (addf (k1 x0 x1 x2 x3 x4 x5 x6 x7) (mulf (wordCol 0x40000000#32) (k2 x0 x1 x2 x3 x4 x5 x6 x7)))
      (mulf (wordCol 0x40000000#32) (k3 x0 x1 x2 x3 x4 x5 x6 x7))) (k4 x0 x1 x2 x3 x4 x5 x6 x7)) (wordCol 0x40C00000#32))

end Pieces

/-! ## The pieces at a row, on the extended reals -/

theorem hostTanh_apply {s : Shape} {φ : FTy} (a : FVec Ideal s φ) (i : s.Idx) : Host.tanh a i = Ideal.tanh (a i) := rfl

theorem lhsC_0 (i : S1048576x32.Idx) (q : dot_S1048576x2_S2x32_S1048576x32_1_0_0_1_n_n.contr.Idx) : (dot_S1048576x2_S2x32_S1048576x32_1_0_0_1_n_n.lhsIdx i q 0).val = (i 0).val := by
  unfold DotDims.lhsIdx
  rw [dif_neg (show ¬(0 : Fin S1048576x2.rank) ∈ dot_S1048576x2_S2x32_S1048576x32_1_0_0_1_n_n.lhsBatch by decide), dif_pos (show (0 : Fin S1048576x2.rank) ∈ dot_S1048576x2_S2x32_S1048576x32_1_0_0_1_n_n.lhsNonContracting by decide)]
  rfl
theorem lhsC_1 (i : S1048576x32.Idx) (q : dot_S1048576x2_S2x32_S1048576x32_1_0_0_1_n_n.contr.Idx) : (dot_S1048576x2_S2x32_S1048576x32_1_0_0_1_n_n.lhsIdx i q 1).val = (q ⟨0, by decide⟩).val :=
  dot_S1048576x2_S2x32_S1048576x32_1_0_0_1_n_n.lhsIdx_val_of_single rfl i q
theorem rhsC_0 (i : S1048576x32.Idx) (q : dot_S1048576x2_S2x32_S1048576x32_1_0_0_1_n_n.contr.Idx) : (dot_S1048576x2_S2x32_S1048576x32_1_0_0_1_n_n.rhsIdx i q 0).val = (q ⟨0, by decide⟩).val :=
  dot_S1048576x2_S2x32_S1048576x32_1_0_0_1_n_n.rhsIdx_val_of_single rfl i q
theorem rhsC_1 (i : S1048576x32.Idx) (q : dot_S1048576x2_S2x32_S1048576x32_1_0_0_1_n_n.contr.Idx) : (dot_S1048576x2_S2x32_S1048576x32_1_0_0_1_n_n.rhsIdx i q 1).val = (i 1).val := by
  unfold DotDims.rhsIdx
  rw [dif_neg (show ¬(1 : Fin S2x32.rank) ∈ dot_S1048576x2_S2x32_S1048576x32_1_0_0_1_n_n.rhsBatch by decide), dif_pos (show (1 : Fin S2x32.rank) ∈ dot_S1048576x2_S2x32_S1048576x32_1_0_0_1_n_n.rhsNonContracting by decide)]
  rfl

theorem lhsA_0 (i : S1048576x32.Idx) (q : dot_S1048576x32_S32x32_S1048576x32_1_0_0_1_n_n.contr.Idx) : (dot_S1048576x32_S32x32_S1048576x32_1_0_0_1_n_n.lhsIdx i q 0).val = (i 0).val := by
  unfold DotDims.lhsIdx
  rw [dif_neg (show ¬(0 : Fin S1048576x32.rank) ∈ dot_S1048576x32_S32x32_S1048576x32_1_0_0_1_n_n.lhsBatch by decide), dif_pos (show (0 : Fin S1048576x32.rank) ∈ dot_S1048576x32_S32x32_S1048576x32_1_0_0_1_n_n.lhsNonContracting by decide)]
  rfl
theorem lhsA_1 (i : S1048576x32.Idx) (q : dot_S1048576x32_S32x32_S1048576x32_1_0_0_1_n_n.contr.Idx) : (dot_S1048576x32_S32x32_S1048576x32_1_0_0_1_n_n.lhsIdx i q 1).val = (q ⟨0, by decide⟩).val :=
  dot_S1048576x32_S32x32_S1048576x32_1_0_0_1_n_n.lhsIdx_val_of_single rfl i q
theorem rhsA_0 (i : S1048576x32.Idx) (q : dot_S1048576x32_S32x32_S1048576x32_1_0_0_1_n_n.contr.Idx) : (dot_S1048576x32_S32x32_S1048576x32_1_0_0_1_n_n.rhsIdx i q 0).val = (q ⟨0, by decide⟩).val :=
  dot_S1048576x32_S32x32_S1048576x32_1_0_0_1_n_n.rhsIdx_val_of_single rfl i q
theorem rhsA_1 (i : S1048576x32.Idx) (q : dot_S1048576x32_S32x32_S1048576x32_1_0_0_1_n_n.contr.Idx) : (dot_S1048576x32_S32x32_S1048576x32_1_0_0_1_n_n.rhsIdx i q 1).val = (i 1).val := by
  unfold DotDims.rhsIdx
  rw [dif_neg (show ¬(1 : Fin S32x32.rank) ∈ dot_S1048576x32_S32x32_S1048576x32_1_0_0_1_n_n.rhsBatch by decide), dif_pos (show (1 : Fin S32x32.rank) ∈ dot_S1048576x32_S32x32_S1048576x32_1_0_0_1_n_n.rhsNonContracting by decide)]
  rfl

theorem lhsB_0 (i : S1048576x1.Idx) (q : dot_S1048576x32_S32x1_S1048576x1_1_0_0_1_n_n.contr.Idx) : (dot_S1048576x32_S32x1_S1048576x1_1_0_0_1_n_n.lhsIdx i q 0).val = (i 0).val := by
  unfold DotDims.lhsIdx
  rw [dif_neg (show ¬(0 : Fin S1048576x32.rank) ∈ dot_S1048576x32_S32x1_S1048576x1_1_0_0_1_n_n.lhsBatch by decide), dif_pos (show (0 : Fin S1048576x32.rank) ∈ dot_S1048576x32_S32x1_S1048576x1_1_0_0_1_n_n.lhsNonContracting by decide)]
  rfl
theorem lhsB_1 (i : S1048576x1.Idx) (q : dot_S1048576x32_S32x1_S1048576x1_1_0_0_1_n_n.contr.Idx) : (dot_S1048576x32_S32x1_S1048576x1_1_0_0_1_n_n.lhsIdx i q 1).val = (q ⟨0, by decide⟩).val :=
  dot_S1048576x32_S32x1_S1048576x1_1_0_0_1_n_n.lhsIdx_val_of_single rfl i q
theorem rhsB_0 (i : S1048576x1.Idx) (q : dot_S1048576x32_S32x1_S1048576x1_1_0_0_1_n_n.contr.Idx) : (dot_S1048576x32_S32x1_S1048576x1_1_0_0_1_n_n.rhsIdx i q 0).val = (q ⟨0, by decide⟩).val :=
  dot_S1048576x32_S32x1_S1048576x1_1_0_0_1_n_n.rhsIdx_val_of_single rfl i q
theorem rhsB_1 (i : S1048576x1.Idx) (q : dot_S1048576x32_S32x1_S1048576x1_1_0_0_1_n_n.contr.Idx) : (dot_S1048576x32_S32x1_S1048576x1_1_0_0_1_n_n.rhsIdx i q 1).val = (i 1).val := by
  unfold DotDims.rhsIdx
  rw [dif_neg (show ¬(1 : Fin S32x1.rank) ∈ dot_S1048576x32_S32x1_S1048576x1_1_0_0_1_n_n.rhsBatch by decide), dif_pos (show (1 : Fin S32x1.rank) ∈ dot_S1048576x32_S32x1_S1048576x1_1_0_0_1_n_n.rhsNonContracting by decide)]
  rfl

/-- The 1048576x2 · 2x32 product at (r, j): the sum over the 2 contracted entries. -/
theorem dotC_apply (l : FVec Ideal S1048576x2 .f32) (w : FVec Ideal S2x32 .f32) (r : Fin 1048576) (j : Fin 32) :
    Host.dotGeneral (F := Ideal) dot_S1048576x2_S2x32_S1048576x32_1_0_0_1_n_n none l w (ix2 r j) = ∑ k : Fin 2, l (ix2 r k) * w (ix2 k j) := by
  simp only [Host.dotGeneral]
  rw [Ideal.dotGeneral_apply, ← Equiv.sum_comp (ValueIdx.contrEquiv1 dot_S1048576x2_S2x32_S1048576x32_1_0_0_1_n_n 2 rfl rfl).symm]
  refine Finset.sum_congr rfl fun k _ => ?_
  have hk := ValueIdx.contrEquiv1_symm_val dot_S1048576x2_S2x32_S1048576x32_1_0_0_1_n_n 2 rfl rfl k
  have el : dot_S1048576x2_S2x32_S1048576x32_1_0_0_1_n_n.lhsIdx (ix2 r j) ((ValueIdx.contrEquiv1 dot_S1048576x2_S2x32_S1048576x32_1_0_0_1_n_n 2 rfl rfl).symm k) = ix2 r k := funext fun a => Fin.ext (by
    match a with
    | ⟨0, _⟩ => exact lhsC_0 _ _
    | ⟨1, _⟩ => exact (lhsC_1 _ _).trans hk)
  have er : dot_S1048576x2_S2x32_S1048576x32_1_0_0_1_n_n.rhsIdx (ix2 r j) ((ValueIdx.contrEquiv1 dot_S1048576x2_S2x32_S1048576x32_1_0_0_1_n_n 2 rfl rfl).symm k) = ix2 k j := funext fun a => Fin.ext (by
    match a with
    | ⟨0, _⟩ => exact (rhsC_0 _ _).trans hk
    | ⟨1, _⟩ => exact rhsC_1 _ _)
  rw [el, er]

/-- The 1048576x32 · 32x32 product at (r, j): the sum over the 32 contracted entries. -/
theorem dotA_apply (l : FVec Ideal S1048576x32 .f32) (w : FVec Ideal S32x32 .f32) (r : Fin 1048576) (j : Fin 32) :
    Host.dotGeneral (F := Ideal) dot_S1048576x32_S32x32_S1048576x32_1_0_0_1_n_n none l w (ix2 r j) = ∑ k : Fin 32, l (ix2 r k) * w (ix2 k j) := by
  simp only [Host.dotGeneral]
  rw [Ideal.dotGeneral_apply, ← Equiv.sum_comp (ValueIdx.contrEquiv1 dot_S1048576x32_S32x32_S1048576x32_1_0_0_1_n_n 32 rfl rfl).symm]
  refine Finset.sum_congr rfl fun k _ => ?_
  have hk := ValueIdx.contrEquiv1_symm_val dot_S1048576x32_S32x32_S1048576x32_1_0_0_1_n_n 32 rfl rfl k
  have el : dot_S1048576x32_S32x32_S1048576x32_1_0_0_1_n_n.lhsIdx (ix2 r j) ((ValueIdx.contrEquiv1 dot_S1048576x32_S32x32_S1048576x32_1_0_0_1_n_n 32 rfl rfl).symm k) = ix2 r k := funext fun a => Fin.ext (by
    match a with
    | ⟨0, _⟩ => exact lhsA_0 _ _
    | ⟨1, _⟩ => exact (lhsA_1 _ _).trans hk)
  have er : dot_S1048576x32_S32x32_S1048576x32_1_0_0_1_n_n.rhsIdx (ix2 r j) ((ValueIdx.contrEquiv1 dot_S1048576x32_S32x32_S1048576x32_1_0_0_1_n_n 32 rfl rfl).symm k) = ix2 k j := funext fun a => Fin.ext (by
    match a with
    | ⟨0, _⟩ => exact (rhsA_0 _ _).trans hk
    | ⟨1, _⟩ => exact rhsA_1 _ _)
  rw [el, er]

/-- The 1048576x32 · 32x1 product at (r, j): the sum over the 32 contracted entries. -/
theorem dotB_apply (l : FVec Ideal S1048576x32 .f32) (w : FVec Ideal S32x1 .f32) (r : Fin 1048576) (j : Fin 1) :
    Host.dotGeneral (F := Ideal) dot_S1048576x32_S32x1_S1048576x1_1_0_0_1_n_n none l w (ix2 r j) = ∑ k : Fin 32, l (ix2 r k) * w (ix2 k j) := by
  simp only [Host.dotGeneral]
  rw [Ideal.dotGeneral_apply, ← Equiv.sum_comp (ValueIdx.contrEquiv1 dot_S1048576x32_S32x1_S1048576x1_1_0_0_1_n_n 32 rfl rfl).symm]
  refine Finset.sum_congr rfl fun k _ => ?_
  have hk := ValueIdx.contrEquiv1_symm_val dot_S1048576x32_S32x1_S1048576x1_1_0_0_1_n_n 32 rfl rfl k
  have el : dot_S1048576x32_S32x1_S1048576x1_1_0_0_1_n_n.lhsIdx (ix2 r j) ((ValueIdx.contrEquiv1 dot_S1048576x32_S32x1_S1048576x1_1_0_0_1_n_n 32 rfl rfl).symm k) = ix2 r k := funext fun a => Fin.ext (by
    match a with
    | ⟨0, _⟩ => exact lhsB_0 _ _
    | ⟨1, _⟩ => exact (lhsB_1 _ _).trans hk)
  have er : dot_S1048576x32_S32x1_S1048576x1_1_0_0_1_n_n.rhsIdx (ix2 r j) ((ValueIdx.contrEquiv1 dot_S1048576x32_S32x1_S1048576x1_1_0_0_1_n_n 32 rfl rfl).symm k) = ix2 k j := funext fun a => Fin.ext (by
    match a with
    | ⟨0, _⟩ => exact (rhsB_0 _ _).trans hk
    | ⟨1, _⟩ => exact rhsB_1 _ _)
  rw [el, er]

/-- A float word over every row, at a row. -/
theorem wordCol_apply (b : BitVec 32) (i : S1048576x1.Idx) : wordCol (F := Ideal) b i = Ideal.ofBits .f32 b := rfl

/-- A [32] bias broadcast over the rows through [1, 32], at (r, j). -/
theorem biasRow_apply (x : FVec Ideal S32 .f32) (r : Fin 1048576) (j : Fin 32) :
    broadcastInDim S1048576x32 ![0, 1] bcast_S1x32_S1048576x32_0_1 (broadcastInDim S1x32 ![1] bcast_S32_S1x32_1 x) (ix2 r j) = x (ix1 j) := by
  refine (broadcastInDim_apply _ bcast_S1x32_S1048576x32_0_1 _ (ix2 r j) (ix2 (0 : Fin 1) j) (fun a => ?_)).trans ?_
  · match a with
    | ⟨0, _⟩ => show 0 = if (1 : Nat) = 1 then 0 else r.val; rw [if_pos rfl]
    | ⟨1, _⟩ => show j.val = if (32 : Nat) = 1 then 0 else j.val; rw [if_neg (by decide)]
  · exact broadcastInDim_apply _ bcast_S32_S1x32_1 x (ix2 (0 : Fin 1) j) (ix1 j) (fun a => by
      match a with
      | ⟨0, _⟩ => show j.val = if (32 : Nat) = 1 then 0 else j.val; rw [if_neg (by decide)])

/-- The [1] bias broadcast over the rows through [1, 1], at (r, 0). -/
theorem biasOne_apply (x : FVec Ideal S1 .f32) (r : Fin 1048576) (q : Fin 1) :
    broadcastInDim S1048576x1 ![0, 1] bcast_S1x1_S1048576x1_0_1 (broadcastInDim S1x1 ![1] bcast_S1_S1x1_1 x) (ix2 r q) = x (ix1 (0 : Fin 1)) := by
  refine (broadcastInDim_apply _ bcast_S1x1_S1048576x1_0_1 _ (ix2 r q) (ix2 (0 : Fin 1) (0 : Fin 1)) (fun a => ?_)).trans ?_
  · match a with
    | ⟨0, _⟩ => show 0 = if (1 : Nat) = 1 then 0 else r.val; rw [if_pos rfl]
    | ⟨1, _⟩ => show 0 = if (1 : Nat) = 1 then 0 else q.val; rw [if_pos rfl]
  · exact broadcastInDim_apply _ bcast_S1_S1x1_1 x (ix2 (0 : Fin 1) (0 : Fin 1)) (ix1 (0 : Fin 1)) (fun a => by
      match a with
      | ⟨0, _⟩ => show 0 = if (1 : Nat) = 1 then 0 else 0; rw [if_pos rfl])

/-- The joined pair at (r, 0) is ε at row r. -/
theorem pair_left (e g : FVec Ideal S1048576x1 .f32) (r : Fin 1048576) :
    concatenate S1048576x2 1 [⟨S1048576x1, e⟩, ⟨S1048576x1, g⟩] concatenates_S1048576x1_S1048576x1_S1048576x2_d1 (ix2 r (0 : Fin 2))
      = e (ix2 r (0 : Fin 1)) :=
  concatenate_pair_apply_left 1 e g concatenates_S1048576x1_S1048576x1_S1048576x2_d1 (ix2 r (0 : Fin 2)) rfl (ix2 r (0 : Fin 1)) (fun b => by
    match b with
    | ⟨0, _⟩ => rfl
    | ⟨1, _⟩ => rfl)

/-- The joined pair at (r, 1) is γ at row r. -/
theorem pair_right (e g : FVec Ideal S1048576x1 .f32) (r : Fin 1048576) :
    concatenate S1048576x2 1 [⟨S1048576x1, e⟩, ⟨S1048576x1, g⟩] concatenates_S1048576x1_S1048576x1_S1048576x2_d1 (ix2 r (1 : Fin 2))
      = g (ix2 r (0 : Fin 1)) :=
  concatenate_pair_apply_right 1 e g concatenates_S1048576x1_S1048576x1_S1048576x2_d1 (ix2 r (1 : Fin 2)) rfl rfl (ix2 r (0 : Fin 1)) (fun b hb => by
    match b with
    | ⟨0, _⟩ => rfl
    | ⟨1, _⟩ => exact absurd rfl hb) rfl

/-- The first layer at row r, unit j. -/
theorem firstLayer_apply (e g : FVec Ideal S1048576x1 .f32) (x2 : FVec Ideal S2x32 .f32) (x3 : FVec Ideal S32 .f32) (r : Fin 1048576) (j : Fin 32) :
    firstLayer (F := Ideal) e g x2 x3 (ix2 r j) = hidden1 x2 x3 (e (ix2 r (0 : Fin 1))) (g (ix2 r (0 : Fin 1))) j := by
  unfold firstLayer hidden1
  rw [hostTanh_apply, addf_apply, dotC_apply, Fin.sum_univ_two, pair_left, pair_right, biasRow_apply]

/-- The upper layers at row r. -/
theorem upperLayers_apply (h1 : FVec Ideal S1048576x32 .f32) (x4 : FVec Ideal S32x32 .f32) (x5 : FVec Ideal S32 .f32) (x6 : FVec Ideal S32x1 .f32) (x7 : FVec Ideal S1 .f32)
    (r : Fin 1048576) :
    upperLayers (F := Ideal) h1 x4 x5 x6 x7 (ix2 r (0 : Fin 1)) = readout x6 x7 (hidden2 x4 x5 fun k => h1 (ix2 r k)) := by
  unfold upperLayers readout hidden2
  rw [addf_apply, dotB_apply, biasOne_apply]
  refine congrArg (· + x7 (ix1 (0 : Fin 1))) (Finset.sum_congr rfl fun k _ => ?_)
  rw [hostTanh_apply, addf_apply, dotA_apply, biasRow_apply]

/-- The called softplus at an index is `softplus`. -/
theorem guardedSoftplus_apply (x : FVec Ideal S1048576x1 .f32) (i : S1048576x1.Idx) : guardedSoftplus (F := Ideal) x i = softplus (x i) :=
  guarded_neg (x i)

end Cert.ReferenceIdeal.Stages

end
-- ==== Proof.RefRun.lean ====
/-
  The reference's run, stretch by stretch.

  The host program is 154 operations in a straight line. Its result read back as one composed term writes every
  shared column out at each of its uses: k1 feeds γ1, which feeds the second evaluation twice, whose slope feeds the
  third twice, and so on. Here the line is cut into five stretches, one per evaluation of the rate, and each
  stretch is read once: the slope it leaves and the state it moves to, as the named pieces of RefStages.lean applied to
  the buffers it reads, and every buffer it does not write kept. Chained, the buffers after the last stretch are the
  named columns k1, γ1, …, k4 and `out` of the arguments' launch contents, and no stretch writes an argument.
-/
import proofs.«152101_j60790967107630_1_alg».proof.Proof.RefOps
import proofs.«152101_j60790967107630_1_alg».proof.Proof.RefStages
import Idealize.ShloMosaic.Lib.StableHlo.Run
import Idealize.ShloMosaic.Lib.Pipeline.Frame

noncomputable section

namespace Cert.ReferenceIdeal.HostRun

open Cert.ReferenceIdeal Cert.ReferenceIdeal.Gen Cert.ReferenceIdeal.HostOps Cert.ReferenceIdeal.Stages
open Idealize.ShloMosaic Idealize.ShloMosaic.TcCoe Idealize.SL.Sem Idealize.ShloMosaic.StableHlo

variable {F : FTy → Type} [FloatOps F]

/-- One operation writes its one result buffer, which is in the list. -/
local macro "writes_one" : tactic =>
  `(tactic| (simp only [nullary_writes, unary_writes, binary_writes, ternary_writes, Finset.singleton_subset_iff, List.mem_toFinset]
             exact List.mem_map_of_mem (by decide)))

/-! ## What each stretch writes, and what it keeps -/

/-- The buffers that stretch writes. -/
abbrev colsW : List (Ref sig .tc) := [main_v0, main_v1, main_v2, main_v3]
theorem cols_writes : (opsCols : List (HloOp τ sig (Elt F))).Forall fun op => op.writes ⊆ (colsW.map (Proc.devRef (τ := τ) .tc)).toFinset := by
  simp only [List.Forall]
  exact ⟨by writes_one, by writes_one, by writes_one, by writes_one⟩
/-- A buffer the stretch does not write keeps its contents through it. -/
theorem cols_keep (W : Valuation τ sig (Elt F)) (r : Ref sig .tc) (h : r ∉ colsW) : after opsCols W (Proc.devRef .tc r) = W (Proc.devRef .tc r) :=
  after_of_writes_sub opsCols W cols_writes h

/-- The buffers that stretch writes. -/
abbrev eval1W : List (Ref sig .tc) := [main_v4, main_v5, main_v6, main_v7, main_v8, main_v9, main_v10, main_v11, main_v12, main_v13, main_v14, main_v15, main_v16, main_v17, main_v18, main_call0_cst, main_call0_v0, main_call0_v1, main_call0_v2, main_call0_v3, main_call0_v4, main_call0_v5, main_call0_v6, main_call0_v7, main_call0_v8, main_call0_v9, main_call0_v10, main_call0_v11, main_v19, main_v20, main_v21, main_v22, main_cst, main_v23, main_v24, main_v25]
theorem eval1_writes : (opsEval1 : List (HloOp τ sig (Elt F))).Forall fun op => op.writes ⊆ (eval1W.map (Proc.devRef (τ := τ) .tc)).toFinset := by
  simp only [List.Forall]
  exact ⟨by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one⟩
/-- A buffer the stretch does not write keeps its contents through it. -/
theorem eval1_keep (W : Valuation τ sig (Elt F)) (r : Ref sig .tc) (h : r ∉ eval1W) : after opsEval1 W (Proc.devRef .tc r) = W (Proc.devRef .tc r) :=
  after_of_writes_sub opsEval1 W eval1_writes h

/-- The buffers that stretch writes. -/
abbrev eval2W : List (Ref sig .tc) := [main_v26, main_v27, main_v28, main_v29, main_v30, main_v31, main_v32, main_v33, main_v34, main_v35, main_v36, main_v37, main_v38, main_v39, main_v40, main_call1_cst, main_call1_v0, main_call1_v1, main_call1_v2, main_call1_v3, main_call1_v4, main_call1_v5, main_call1_v6, main_call1_v7, main_call1_v8, main_call1_v9, main_call1_v10, main_call1_v11, main_v41, main_v42, main_v43, main_v44, main_cst_0, main_v45, main_v46, main_v47]
theorem eval2_writes : (opsEval2 : List (HloOp τ sig (Elt F))).Forall fun op => op.writes ⊆ (eval2W.map (Proc.devRef (τ := τ) .tc)).toFinset := by
  simp only [List.Forall]
  exact ⟨by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one⟩
/-- A buffer the stretch does not write keeps its contents through it. -/
theorem eval2_keep (W : Valuation τ sig (Elt F)) (r : Ref sig .tc) (h : r ∉ eval2W) : after opsEval2 W (Proc.devRef .tc r) = W (Proc.devRef .tc r) :=
  after_of_writes_sub opsEval2 W eval2_writes h

/-- The buffers that stretch writes. -/
abbrev eval3W : List (Ref sig .tc) := [main_v48, main_v49, main_v50, main_v51, main_v52, main_v53, main_v54, main_v55, main_v56, main_v57, main_v58, main_v59, main_v60, main_v61, main_v62, main_call2_cst, main_call2_v0, main_call2_v1, main_call2_v2, main_call2_v3, main_call2_v4, main_call2_v5, main_call2_v6, main_call2_v7, main_call2_v8, main_call2_v9, main_call2_v10, main_call2_v11, main_v63, main_v64, main_v65, main_v66, main_v67]
theorem eval3_writes : (opsEval3 : List (HloOp τ sig (Elt F))).Forall fun op => op.writes ⊆ (eval3W.map (Proc.devRef (τ := τ) .tc)).toFinset := by
  simp only [List.Forall]
  exact ⟨by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one⟩
/-- A buffer the stretch does not write keeps its contents through it. -/
theorem eval3_keep (W : Valuation τ sig (Elt F)) (r : Ref sig .tc) (h : r ∉ eval3W) : after opsEval3 W (Proc.devRef .tc r) = W (Proc.devRef .tc r) :=
  after_of_writes_sub opsEval3 W eval3_writes h

/-- The buffers that stretch writes. -/
abbrev tailW : List (Ref sig .tc) := [main_v68, main_v69, main_v70, main_v71, main_v72, main_v73, main_v74, main_v75, main_v76, main_v77, main_v78, main_v79, main_v80, main_v81, main_v82, main_call3_cst, main_call3_v0, main_call3_v1, main_call3_v2, main_call3_v3, main_call3_v4, main_call3_v5, main_call3_v6, main_call3_v7, main_call3_v8, main_call3_v9, main_call3_v10, main_call3_v11, main_v83, main_v84, main_v85, main_v86, main_cst_1, main_v87, main_v88, main_v89, main_cst_2, main_v90, main_v91, main_v92, main_v93, main_cst_3, main_v94, main_v95, main_v96]
theorem tail_writes : (opsTail : List (HloOp τ sig (Elt F))).Forall fun op => op.writes ⊆ (tailW.map (Proc.devRef (τ := τ) .tc)).toFinset := by
  simp only [List.Forall]
  exact ⟨by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one⟩
/-- A buffer the stretch does not write keeps its contents through it. -/
theorem tail_keep (W : Valuation τ sig (Elt F)) (r : Ref sig .tc) (h : r ∉ tailW) : after opsTail W (Proc.devRef .tc r) = W (Proc.devRef .tc r) :=
  after_of_writes_sub opsTail W tail_writes h

/-! ## What each stretch computes, from any contents before it -/

set_option maxRecDepth 8192 in
set_option maxHeartbeats 4000000 in
/-- Column 0 of the input. -/
theorem cols_v0 (W : Valuation τ sig (Elt F)) : after opsCols W (Proc.devRef .tc main_v0) = col0 (W (Proc.devRef .tc main_arg0)) := by
  simp only [opsCols]
  after_results_simp
  try simp only [TRef.ofBuf, TRef.toBuf, cast_eq]
  rfl

set_option maxRecDepth 8192 in
set_option maxHeartbeats 4000000 in
/-- Column 1. -/
theorem cols_v1 (W : Valuation τ sig (Elt F)) : after opsCols W (Proc.devRef .tc main_v1) = col1 (W (Proc.devRef .tc main_arg0)) := by
  simp only [opsCols]
  after_results_simp
  try simp only [TRef.ofBuf, TRef.toBuf, cast_eq]
  rfl

set_option maxRecDepth 8192 in
set_option maxHeartbeats 4000000 in
/-- Column 2. -/
theorem cols_v2 (W : Valuation τ sig (Elt F)) : after opsCols W (Proc.devRef .tc main_v2) = col2 (W (Proc.devRef .tc main_arg0)) := by
  simp only [opsCols]
  after_results_simp
  try simp only [TRef.ofBuf, TRef.toBuf, cast_eq]
  rfl

set_option maxRecDepth 8192 in
set_option maxHeartbeats 4000000 in
/-- Column 3. -/
theorem cols_v3 (W : Valuation τ sig (Elt F)) : after opsCols W (Proc.devRef .tc main_v3) = col3 (W (Proc.devRef .tc main_arg0)) := by
  simp only [opsCols]
  after_results_simp
  try simp only [TRef.ofBuf, TRef.toBuf, cast_eq]
  rfl

set_option maxRecDepth 8192 in
set_option maxHeartbeats 4000000 in
/-- The first slope: the rate at (column 0, the state), times the step length and their difference. -/
theorem eval1_slope (W : Valuation τ sig (Elt F)) : after opsEval1 W (Proc.devRef .tc main_v22) = slopeV (W (Proc.devRef .tc main_v3)) (W (Proc.devRef .tc main_v0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) := by
  simp only [opsEval1]
  after_results_simp
  try simp only [TRef.ofBuf, TRef.toBuf, cast_eq]
  rfl

set_option maxRecDepth 8192 in
set_option maxHeartbeats 4000000 in
/-- The state moved half a first slope. -/
theorem eval1_state (W : Valuation τ sig (Elt F)) : after opsEval1 W (Proc.devRef .tc main_v25) = addf (W (Proc.devRef .tc main_arg1)) (mulf (slopeV (W (Proc.devRef .tc main_v3)) (W (Proc.devRef .tc main_v0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7))) (wordCol 0x3F000000#32)) := by
  simp only [opsEval1]
  after_results_simp
  try simp only [TRef.ofBuf, TRef.toBuf, cast_eq]
  rfl

set_option maxRecDepth 8192 in
set_option maxHeartbeats 4000000 in
/-- The second slope, at (column 1, the moved state). -/
theorem eval2_slope (W : Valuation τ sig (Elt F)) : after opsEval2 W (Proc.devRef .tc main_v44) = slopeV (W (Proc.devRef .tc main_v3)) (W (Proc.devRef .tc main_v1)) (W (Proc.devRef .tc main_v25)) (W (Proc.devRef .tc main_arg2)) (W (Proc.devRef .tc main_arg3)) (W (Proc.devRef .tc main_arg4)) (W (Proc.devRef .tc main_arg5)) (W (Proc.devRef .tc main_arg6)) (W (Proc.devRef .tc main_arg7)) := by
  simp only [opsEval2]
  after_results_simp
  try simp only [TRef.ofBuf, TRef.toBuf, cast_eq]
  rfl

set_option maxRecDepth 8192 in
set_option maxHeartbeats 4000000 in
/-- The state moved half a second slope. -/
theorem eval2_state (W : Valuation τ sig (Elt F)) : after opsEval2 W (Proc.devRef .tc main_v47) = addf (W (Proc.devRef .tc main_arg1)) (mulf (slopeV (W (Proc.devRef .tc main_v3)) (W (Proc.devRef .tc main_v1)) (W (Proc.devRef .tc main_v25)) (W (Proc.devRef .tc main_arg2)) (W (Proc.devRef .tc main_arg3)) (W (Proc.devRef .tc main_arg4)) (W (Proc.devRef .tc main_arg5)) (W (Proc.devRef .tc main_arg6)) (W (Proc.devRef .tc main_arg7))) (wordCol 0x3F000000#32)) := by
  simp only [opsEval2]
  after_results_simp
  try simp only [TRef.ofBuf, TRef.toBuf, cast_eq]
  rfl

set_option maxRecDepth 8192 in
set_option maxHeartbeats 4000000 in
/-- The third slope. -/
theorem eval3_slope (W : Valuation τ sig (Elt F)) : after opsEval3 W (Proc.devRef .tc main_v66) = slopeV (W (Proc.devRef .tc main_v3)) (W (Proc.devRef .tc main_v1)) (W (Proc.devRef .tc main_v47)) (W (Proc.devRef .tc main_arg2)) (W (Proc.devRef .tc main_arg3)) (W (Proc.devRef .tc main_arg4)) (W (Proc.devRef .tc main_arg5)) (W (Proc.devRef .tc main_arg6)) (W (Proc.devRef .tc main_arg7)) := by
  simp only [opsEval3]
  after_results_simp
  try simp only [TRef.ofBuf, TRef.toBuf, cast_eq]
  rfl

set_option maxRecDepth 8192 in
set_option maxHeartbeats 4000000 in
/-- The state moved a whole third slope. -/
theorem eval3_state (W : Valuation τ sig (Elt F)) : after opsEval3 W (Proc.devRef .tc main_v67) = addf (W (Proc.devRef .tc main_arg1)) (slopeV (W (Proc.devRef .tc main_v3)) (W (Proc.devRef .tc main_v1)) (W (Proc.devRef .tc main_v47)) (W (Proc.devRef .tc main_arg2)) (W (Proc.devRef .tc main_arg3)) (W (Proc.devRef .tc main_arg4)) (W (Proc.devRef .tc main_arg5)) (W (Proc.devRef .tc main_arg6)) (W (Proc.devRef .tc main_arg7))) := by
  simp only [opsEval3]
  after_results_simp
  try simp only [TRef.ofBuf, TRef.toBuf, cast_eq]
  rfl

set_option maxRecDepth 8192 in
set_option maxHeartbeats 4000000 in
/-- The fourth slope at (column 2, the state moved a third slope), and the weighted sum of the four over six, added to the state. -/
theorem tail_out (W : Valuation τ sig (Elt F)) : after opsTail W (Proc.devRef .tc main_v96) = addf (W (Proc.devRef .tc main_arg1)) (Host.divf (addf (addf (addf (W (Proc.devRef .tc main_v22)) (mulf (wordCol 0x40000000#32) (W (Proc.devRef .tc main_v44)))) (mulf (wordCol 0x40000000#32) (W (Proc.devRef .tc main_v66)))) (slopeV (W (Proc.devRef .tc main_v3)) (W (Proc.devRef .tc main_v2)) (W (Proc.devRef .tc main_v67)) (W (Proc.devRef .tc main_arg2)) (W (Proc.devRef .tc main_arg3)) (W (Proc.devRef .tc main_arg4)) (W (Proc.devRef .tc main_arg5)) (W (Proc.devRef .tc main_arg6)) (W (Proc.devRef .tc main_arg7)))) (wordCol 0x40C00000#32)) := by
  simp only [opsTail]
  after_results_simp
  try simp only [TRef.ofBuf, TRef.toBuf, cast_eq]
  rfl

/-! ## The stretches chained -/

/-- The device's buffers after the first k stretches. -/
def val1 (V0 : Valuation τ sig (Elt F)) : Valuation τ sig (Elt F) := after opsCols V0
def val2 (V0 : Valuation τ sig (Elt F)) : Valuation τ sig (Elt F) := after opsEval1 (val1 V0)
def val3 (V0 : Valuation τ sig (Elt F)) : Valuation τ sig (Elt F) := after opsEval2 (val2 V0)
def val4 (V0 : Valuation τ sig (Elt F)) : Valuation τ sig (Elt F) := after opsEval3 (val3 V0)
def val5 (V0 : Valuation τ sig (Elt F)) : Valuation τ sig (Elt F) := after opsTail (val4 V0)

/-- After all 154 operations the buffers are those after the five stretches. -/
theorem after_ops (V0 : Valuation τ sig (Elt F)) : after ops V0 = val5 V0 := by
  rw [ops_split, StableHlo.after_append, StableHlo.after_append, StableHlo.after_append, StableHlo.after_append]
  rfl

/-- @main's arguments. -/
abbrev argRefs : List (Ref sig .tc) := [main_arg0, main_arg1, main_arg2, main_arg3, main_arg4, main_arg5, main_arg6, main_arg7]

/-! ### After the columns -/
theorem val1_e0 (V0 : Valuation τ sig (Elt F)) : val1 V0 (Proc.devRef .tc main_v0) = col0 (V0 (Proc.devRef .tc main_arg0)) := cols_v0 V0
theorem val1_e1 (V0 : Valuation τ sig (Elt F)) : val1 V0 (Proc.devRef .tc main_v1) = col1 (V0 (Proc.devRef .tc main_arg0)) := cols_v1 V0
theorem val1_e2 (V0 : Valuation τ sig (Elt F)) : val1 V0 (Proc.devRef .tc main_v2) = col2 (V0 (Proc.devRef .tc main_arg0)) := cols_v2 V0
theorem val1_dt (V0 : Valuation τ sig (Elt F)) : val1 V0 (Proc.devRef .tc main_v3) = col3 (V0 (Proc.devRef .tc main_arg0)) := cols_v3 V0
/-- No stretch writes an argument. -/
theorem val1_arg (V0 : Valuation τ sig (Elt F)) (r : Ref sig .tc) (h : r ∈ argRefs) : val1 V0 (Proc.devRef .tc r) = V0 (Proc.devRef .tc r) :=
  cols_keep V0 r ((by decide : ∀ r ∈ argRefs, r ∉ colsW) r h)

/-! ### After the first evaluation -/
theorem val2_k1 (V0 : Valuation τ sig (Elt F)) : val2 V0 (Proc.devRef .tc main_v22) = k1 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) := by
  unfold val2
  rw [eval1_slope, val1_dt, val1_e0, val1_arg V0 main_arg1 (by decide), val1_arg V0 main_arg2 (by decide), val1_arg V0 main_arg3 (by decide), val1_arg V0 main_arg4 (by decide), val1_arg V0 main_arg5 (by decide), val1_arg V0 main_arg6 (by decide), val1_arg V0 main_arg7 (by decide)]
  rfl
theorem val2_g1 (V0 : Valuation τ sig (Elt F)) : val2 V0 (Proc.devRef .tc main_v25) = g1 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) := by
  unfold val2
  rw [eval1_state, val1_dt, val1_e0, val1_arg V0 main_arg1 (by decide), val1_arg V0 main_arg2 (by decide), val1_arg V0 main_arg3 (by decide), val1_arg V0 main_arg4 (by decide), val1_arg V0 main_arg5 (by decide), val1_arg V0 main_arg6 (by decide), val1_arg V0 main_arg7 (by decide)]
  rfl
theorem val2_e1 (V0 : Valuation τ sig (Elt F)) : val2 V0 (Proc.devRef .tc main_v1) = col1 (V0 (Proc.devRef .tc main_arg0)) :=
  (eval1_keep (val1 V0) main_v1 (by decide)).trans (val1_e1 V0)
theorem val2_e2 (V0 : Valuation τ sig (Elt F)) : val2 V0 (Proc.devRef .tc main_v2) = col2 (V0 (Proc.devRef .tc main_arg0)) :=
  (eval1_keep (val1 V0) main_v2 (by decide)).trans (val1_e2 V0)
theorem val2_dt (V0 : Valuation τ sig (Elt F)) : val2 V0 (Proc.devRef .tc main_v3) = col3 (V0 (Proc.devRef .tc main_arg0)) :=
  (eval1_keep (val1 V0) main_v3 (by decide)).trans (val1_dt V0)
/-- No stretch writes an argument. -/
theorem val2_arg (V0 : Valuation τ sig (Elt F)) (r : Ref sig .tc) (h : r ∈ argRefs) : val2 V0 (Proc.devRef .tc r) = V0 (Proc.devRef .tc r) :=
  (eval1_keep (val1 V0) r ((by decide : ∀ r ∈ argRefs, r ∉ eval1W) r h)).trans (val1_arg V0 r h)

/-! ### After the second evaluation -/
theorem val3_k2 (V0 : Valuation τ sig (Elt F)) : val3 V0 (Proc.devRef .tc main_v44) = k2 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) := by
  unfold val3
  rw [eval2_slope, val2_dt, val2_e1, val2_g1, val2_arg V0 main_arg2 (by decide), val2_arg V0 main_arg3 (by decide), val2_arg V0 main_arg4 (by decide), val2_arg V0 main_arg5 (by decide), val2_arg V0 main_arg6 (by decide), val2_arg V0 main_arg7 (by decide)]
  rfl
theorem val3_g2 (V0 : Valuation τ sig (Elt F)) : val3 V0 (Proc.devRef .tc main_v47) = g2 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) := by
  unfold val3
  rw [eval2_state, val2_dt, val2_e1, val2_g1, val2_arg V0 main_arg1 (by decide), val2_arg V0 main_arg2 (by decide), val2_arg V0 main_arg3 (by decide), val2_arg V0 main_arg4 (by decide), val2_arg V0 main_arg5 (by decide), val2_arg V0 main_arg6 (by decide), val2_arg V0 main_arg7 (by decide)]
  rfl
theorem val3_k1 (V0 : Valuation τ sig (Elt F)) : val3 V0 (Proc.devRef .tc main_v22) = k1 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) :=
  (eval2_keep (val2 V0) main_v22 (by decide)).trans (val2_k1 V0)
theorem val3_e1 (V0 : Valuation τ sig (Elt F)) : val3 V0 (Proc.devRef .tc main_v1) = col1 (V0 (Proc.devRef .tc main_arg0)) :=
  (eval2_keep (val2 V0) main_v1 (by decide)).trans (val2_e1 V0)
theorem val3_e2 (V0 : Valuation τ sig (Elt F)) : val3 V0 (Proc.devRef .tc main_v2) = col2 (V0 (Proc.devRef .tc main_arg0)) :=
  (eval2_keep (val2 V0) main_v2 (by decide)).trans (val2_e2 V0)
theorem val3_dt (V0 : Valuation τ sig (Elt F)) : val3 V0 (Proc.devRef .tc main_v3) = col3 (V0 (Proc.devRef .tc main_arg0)) :=
  (eval2_keep (val2 V0) main_v3 (by decide)).trans (val2_dt V0)
/-- No stretch writes an argument. -/
theorem val3_arg (V0 : Valuation τ sig (Elt F)) (r : Ref sig .tc) (h : r ∈ argRefs) : val3 V0 (Proc.devRef .tc r) = V0 (Proc.devRef .tc r) :=
  (eval2_keep (val2 V0) r ((by decide : ∀ r ∈ argRefs, r ∉ eval2W) r h)).trans (val2_arg V0 r h)

/-! ### After the third evaluation -/
theorem val4_k3 (V0 : Valuation τ sig (Elt F)) : val4 V0 (Proc.devRef .tc main_v66) = k3 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) := by
  unfold val4
  rw [eval3_slope, val3_dt, val3_e1, val3_g2, val3_arg V0 main_arg2 (by decide), val3_arg V0 main_arg3 (by decide), val3_arg V0 main_arg4 (by decide), val3_arg V0 main_arg5 (by decide), val3_arg V0 main_arg6 (by decide), val3_arg V0 main_arg7 (by decide)]
  rfl
theorem val4_g3 (V0 : Valuation τ sig (Elt F)) : val4 V0 (Proc.devRef .tc main_v67) = g3 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) := by
  unfold val4
  rw [eval3_state, val3_dt, val3_e1, val3_g2, val3_arg V0 main_arg1 (by decide), val3_arg V0 main_arg2 (by decide), val3_arg V0 main_arg3 (by decide), val3_arg V0 main_arg4 (by decide), val3_arg V0 main_arg5 (by decide), val3_arg V0 main_arg6 (by decide), val3_arg V0 main_arg7 (by decide)]
  rfl
theorem val4_k1 (V0 : Valuation τ sig (Elt F)) : val4 V0 (Proc.devRef .tc main_v22) = k1 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) :=
  (eval3_keep (val3 V0) main_v22 (by decide)).trans (val3_k1 V0)
theorem val4_k2 (V0 : Valuation τ sig (Elt F)) : val4 V0 (Proc.devRef .tc main_v44) = k2 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) :=
  (eval3_keep (val3 V0) main_v44 (by decide)).trans (val3_k2 V0)
theorem val4_e2 (V0 : Valuation τ sig (Elt F)) : val4 V0 (Proc.devRef .tc main_v2) = col2 (V0 (Proc.devRef .tc main_arg0)) :=
  (eval3_keep (val3 V0) main_v2 (by decide)).trans (val3_e2 V0)
theorem val4_dt (V0 : Valuation τ sig (Elt F)) : val4 V0 (Proc.devRef .tc main_v3) = col3 (V0 (Proc.devRef .tc main_arg0)) :=
  (eval3_keep (val3 V0) main_v3 (by decide)).trans (val3_dt V0)
/-- No stretch writes an argument. -/
theorem val4_arg (V0 : Valuation τ sig (Elt F)) (r : Ref sig .tc) (h : r ∈ argRefs) : val4 V0 (Proc.devRef .tc r) = V0 (Proc.devRef .tc r) :=
  (eval3_keep (val3 V0) r ((by decide : ∀ r ∈ argRefs, r ∉ eval3W) r h)).trans (val3_arg V0 r h)

/-! ### After the last stretch -/
theorem val5_out (V0 : Valuation τ sig (Elt F)) : val5 V0 (Proc.devRef .tc main_v96) = out (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) := by
  unfold val5
  rw [tail_out, val4_k1, val4_k2, val4_k3, val4_dt, val4_e2, val4_g3, val4_arg V0 main_arg1 (by decide), val4_arg V0 main_arg2 (by decide), val4_arg V0 main_arg3 (by decide), val4_arg V0 main_arg4 (by decide), val4_arg V0 main_arg5 (by decide), val4_arg V0 main_arg6 (by decide), val4_arg V0 main_arg7 (by decide)]
  rfl
/-- No stretch writes an argument. -/
theorem val5_arg (V0 : Valuation τ sig (Elt F)) (r : Ref sig .tc) (h : r ∈ argRefs) : val5 V0 (Proc.devRef .tc r) = V0 (Proc.devRef .tc r) :=
  (tail_keep (val4 V0) r ((by decide : ∀ r ∈ argRefs, r ∉ tailW) r h)).trans (val4_arg V0 r h)

/-- The result buffer after @main's operations: `out` of the arguments' contents before them. -/
theorem result_eq (V0 : Valuation τ sig (Elt F)) : after ops V0 (Proc.devRef .tc main_v96) = out (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) := by
  rw [after_ops]; exact val5_out V0

/-- An argument after @main's operations: as before them. -/
theorem arg_kept (V0 : Valuation τ sig (Elt F)) (r : Ref sig .tc) (h : r ∈ argRefs) : after ops V0 (Proc.devRef .tc r) = V0 (Proc.devRef .tc r) := by
  rw [after_ops]; exact val5_arg V0 r h

/-! ## The run -/

set_option maxRecDepth 8192 in
set_option maxHeartbeats 61600000 in
/-- On every device, from any memory with zero counters: every weakly fair execution of @main terminates with the
    result buffer at `out` of the arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v96) = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v96).trans (result_eq _),
      (h c main_arg0).trans (arg_kept _ main_arg0 (by decide)),
      (h c main_arg1).trans (arg_kept _ main_arg1 (by decide)),
      (h c main_arg2).trans (arg_kept _ main_arg2 (by decide)),
      (h c main_arg3).trans (arg_kept _ main_arg3 (by decide)),
      (h c main_arg4).trans (arg_kept _ main_arg4 (by decide)),
      (h c main_arg5).trans (arg_kept _ main_arg5 (by decide)),
      (h c main_arg6).trans (arg_kept _ main_arg6 (by decide)),
      (h c main_arg7).trans (arg_kept _ main_arg7 (by decide))⟩)
    (run_seq scopedRefs_eq scopedSems_eq defs main (fun _ => ops) main_eq (fun _ => ops_sub) m ρ)

end Cert.ReferenceIdeal.HostRun

end
-- ==== Proof.RefRow.lean ====
/-
  The reference's columns at a row: the Runge–Kutta step of that row.

  Each named column of the reference's program is, at row r, the scalar of RowStep.lean built from the row's five
  numbers: a rate is softplus of the readout of the two hidden layers, a slope is dt · rate · (ε − γ), and the result
  is the state plus the weighted sum of the four slopes over six. So the whole result column is the stepped column
  `stepArr` of the arguments, the same function the kernel's output array ends at.
-/
import proofs.«152101_j60790967107630_1_alg».proof.Proof.RefStages
import Idealize.ShloMosaic.Lib.ValueLayout

noncomputable section

namespace Cert.ReferenceIdeal.Stages

open Cert.ReferenceIdeal Cert.ReferenceIdeal.Gen Idealize.ShloMosaic Idealize.ShloMosaic.ValueIdx
open Cert.GammaStep

/-- The parameters as the network they are. -/
abbrev net (x2 : FVec Ideal S2x32 .f32) (x3 : FVec Ideal S32 .f32) (x4 : FVec Ideal S32x32 .f32) (x5 : FVec Ideal S32 .f32) (x6 : FVec Ideal S32x1 .f32) (x7 : FVec Ideal S1 .f32) : Net := ⟨x2, x3, x4, x5, x6, x7⟩

theorem hostDivf_apply {s : Shape} {φ : FTy} (a b : FVec Ideal s φ) (i : s.Idx) : Host.divf a b i = Ideal.div (a i) (b i) := rfl

/-- The four columns of the input at row r. -/
theorem col0_apply (x0 : FVec Ideal S1048576x4 .f32) (r : Fin 1048576) : col0 (F := Ideal) x0 (ix2 r (0 : Fin 1)) = x0 (ix2 r (0 : Fin 4)) :=
  slice2_axis1_apply 0 x0 slices_S1048576x4_S1048576x1_0_0 r 0 0 rfl
theorem col1_apply (x0 : FVec Ideal S1048576x4 .f32) (r : Fin 1048576) : col1 (F := Ideal) x0 (ix2 r (0 : Fin 1)) = x0 (ix2 r (1 : Fin 4)) :=
  slice2_axis1_apply 1 x0 slices_S1048576x4_S1048576x1_0_1 r 0 1 rfl
theorem col2_apply (x0 : FVec Ideal S1048576x4 .f32) (r : Fin 1048576) : col2 (F := Ideal) x0 (ix2 r (0 : Fin 1)) = x0 (ix2 r (2 : Fin 4)) :=
  slice2_axis1_apply 2 x0 slices_S1048576x4_S1048576x1_0_2 r 0 2 rfl
theorem col3_apply (x0 : FVec Ideal S1048576x4 .f32) (r : Fin 1048576) : col3 (F := Ideal) x0 (ix2 r (0 : Fin 1)) = x0 (ix2 r (3 : Fin 4)) :=
  slice2_axis1_apply 3 x0 slices_S1048576x4_S1048576x1_0_3 r 0 3 rfl

/-- The rate over the rows, at row r. -/
theorem rateV_apply (e g : FVec Ideal S1048576x1 .f32) (x2 : FVec Ideal S2x32 .f32) (x3 : FVec Ideal S32 .f32) (x4 : FVec Ideal S32x32 .f32) (x5 : FVec Ideal S32 .f32) (x6 : FVec Ideal S32x1 .f32) (x7 : FVec Ideal S1 .f32) (r : Fin 1048576) :
    rateV (F := Ideal) e g x2 x3 x4 x5 x6 x7 (ix2 r (0 : Fin 1))
      = rate (net x2 x3 x4 x5 x6 x7) (e (ix2 r (0 : Fin 1))) (g (ix2 r (0 : Fin 1))) := by
  unfold rateV
  rw [guardedSoftplus_apply, upperLayers_apply]
  have h1 : (fun k => firstLayer (F := Ideal) e g x2 x3 (ix2 r k)) = hidden1 x2 x3 (e (ix2 r (0 : Fin 1))) (g (ix2 r (0 : Fin 1))) :=
    funext fun k => firstLayer_apply e g x2 x3 r k
  rw [h1]
  rfl

/-- A slope over the rows, at row r. -/
theorem slopeV_apply (dt e g : FVec Ideal S1048576x1 .f32) (x2 : FVec Ideal S2x32 .f32) (x3 : FVec Ideal S32 .f32) (x4 : FVec Ideal S32x32 .f32) (x5 : FVec Ideal S32 .f32) (x6 : FVec Ideal S32x1 .f32) (x7 : FVec Ideal S1 .f32) (r : Fin 1048576) :
    slopeV (F := Ideal) dt e g x2 x3 x4 x5 x6 x7 (ix2 r (0 : Fin 1))
      = slope (net x2 x3 x4 x5 x6 x7) (dt (ix2 r (0 : Fin 1))) (e (ix2 r (0 : Fin 1))) (g (ix2 r (0 : Fin 1))) := by
  unfold slopeV
  rw [mulf_apply, mulf_apply, subf_apply, rateV_apply]
  rfl

/-- The reference's result at row r is the step of the row's five numbers. -/
theorem out_apply (x0 : FVec Ideal S1048576x4 .f32) (x1 : FVec Ideal S1048576x1 .f32) (x2 : FVec Ideal S2x32 .f32) (x3 : FVec Ideal S32 .f32) (x4 : FVec Ideal S32x32 .f32) (x5 : FVec Ideal S32 .f32) (x6 : FVec Ideal S32x1 .f32) (x7 : FVec Ideal S1 .f32) (r : Fin 1048576) :
    out (F := Ideal) x0 x1 x2 x3 x4 x5 x6 x7 (ix2 r (0 : Fin 1)) = stepRow (net x2 x3 x4 x5 x6 x7) x0 x1 r := by
  unfold out stepRow
  simp only [addf_apply, mulf_apply, hostDivf_apply, wordCol_apply, k4, g3, k3, g2, k2, g1, k1, slopeV_apply,
    col0_apply, col1_apply, col2_apply, col3_apply]
  rfl

/-- The reference's result column is the stepped column of the arguments. -/
theorem out_eq (x0 : FVec Ideal S1048576x4 .f32) (x1 : FVec Ideal S1048576x1 .f32) (x2 : FVec Ideal S2x32 .f32) (x3 : FVec Ideal S32 .f32) (x4 : FVec Ideal S32x32 .f32) (x5 : FVec Ideal S32 .f32) (x6 : FVec Ideal S32x1 .f32) (x7 : FVec Ideal S1 .f32) : out (F := Ideal) x0 x1 x2 x3 x4 x5 x6 x7 = stepArr (net x2 x3 x4 x5 x6 x7) x0 x1 := by
  funext i
  obtain ⟨p, q, rfl⟩ : ∃ (p : Fin 1048576) (q : Fin 1), i = ix2 p q := ⟨i 0, i 1, eq_ix2 i⟩
  obtain rfl : q = 0 := Subsingleton.elim _ _
  exact out_apply x0 x1 x2 x3 x4 x5 x6 x7 p

end Cert.ReferenceIdeal.Stages

end
-- ==== Proof.lean ====
/-
  The kernel and its reference compute the same Runge–Kutta step, row by row, over the extended reals.

  Both programs take 1048576 rows of four numbers (the strain at the start, the middle and the end of a step, and the
  step length), a state column γ, and the parameters of a three-layer network f, and return the state after one
  classical fourth-order step of dγ/dt = f(ε, γ) · (ε − γ) (RowStep.lean). The kernel walks the rows in 256 blocks of
  4096 and writes the first layer as two broadcast products and the upper layers as matrix products on narrowed
  operands; the reference joins (ε, γ) into a two-column array and uses three matrix products. On the extended reals
  a narrowing is the identity, a matrix product into zero is the sum over the contracted axis, and the sum over the
  two joined columns is the two broadcast products added; the two spellings of the guarded softplus differ only in
  0 − |d| against −|d|. No law used needs the inputs finite: nothing is distributed over a sum, and nothing cancels.

  The kernel's output array after its run is the stepped column `stepArr` of its arguments (KernelBlock, KernelRow,
  KernelArray over the generated frame and value leg); the reference's result after its run is the named column `out`
  of its arguments (RefStages, RefRun over the operation list of RefOps), which is the same stepped column (RefRow).
  The three frames are the generated frames of the two kernel programs and the reference's run with its result
  dropped; the idealization rewrote nothing, so its claim is trivial.
-/
import proofs.«152101_j60790967107630_1_alg».proof.Defs
import proofs.«152101_j60790967107630_1_alg».proof.Proof.Gen.Kernel
import proofs.«152101_j60790967107630_1_alg».proof.Proof.Gen.Kernel.Skeleton
import proofs.«152101_j60790967107630_1_alg».proof.Proof.Gen.Kernel.Launch
import proofs.«152101_j60790967107630_1_alg».proof.Proof.Gen.Kernel.Points
import proofs.«152101_j60790967107630_1_alg».proof.Proof.Gen.Kernel.Frame
import proofs.«152101_j60790967107630_1_alg».proof.Proof.Gen.KernelIdeal
import proofs.«152101_j60790967107630_1_alg».proof.Proof.Gen.KernelIdeal.Skeleton
import proofs.«152101_j60790967107630_1_alg».proof.Proof.Gen.KernelIdeal.Launch
import proofs.«152101_j60790967107630_1_alg».proof.Proof.Gen.KernelIdeal.Points
import proofs.«152101_j60790967107630_1_alg».proof.Proof.Gen.KernelIdeal.Frame
import proofs.«152101_j60790967107630_1_alg».proof.Proof.Gen.KernelIdeal.Value
import proofs.«152101_j60790967107630_1_alg».proof.Proof.Gen.ReferenceIdeal
import proofs.«152101_j60790967107630_1_alg».proof.Proof.Gen.Pre_finite_inputs
import proofs.«152101_j60790967107630_1_alg».proof.Proof.KernelArray
import proofs.«152101_j60790967107630_1_alg».proof.Proof.RefRun
import proofs.«152101_j60790967107630_1_alg».proof.Proof.RefRow
import Idealize.ShloMosaic.Adequacy
import Idealize.ShloMosaic.Init

noncomputable section

namespace Cert.Proof

open Idealize.ShloMosaic Idealize.ShloMosaic.TcCoe Idealize.SL.Sem

/-- The kernel as printed runs and keeps its arguments: its generated frame. -/
theorem frame_kernel : Cert.frame_Kernel := fun m ρ _ => Cert.Kernel.Gen.frame m ρ

/-- So does the kernel read at the extended reals. -/
theorem frame_kernelIdeal : Cert.frame_KernelIdeal := fun m ρ _ => Cert.KernelIdeal.Gen.frame m ρ

/-- The reference runs and keeps its arguments: its run, the result dropped. -/
theorem frame_referenceIdeal : Cert.frame_ReferenceIdeal := fun m ρ _ =>
  (θ_run Cert.ReferenceIdeal.defs _ _).mono (fun _ h c => (h c).2) (Cert.ReferenceIdeal.HostRun.run (F := Ideal) m ρ)

/-- From memories that agree on the arguments both programs end with the stepped column of those arguments. -/
theorem algebraic : Cert.algebraic_KernelIdeal_ReferenceIdeal := by
  intro m ρ m' ρ' _ hagree
  refine ⟨fun c => Cert.KernelIdeal.Whole.stepped m c, Cert.KernelIdeal.Whole.run m ρ, ?_⟩
  refine (θ_run Cert.ReferenceIdeal.defs _ _).mono (fun _ h c => ⟨(h c).1.trans ?_, (h c).2⟩)
    (Cert.ReferenceIdeal.HostRun.run (F := Ideal) m' ρ')
  obtain ⟨h0, h1, h2, h3, h4, h5, h6, h7⟩ := hagree c
  rw [h0, h1, h2, h3, h4, h5, h6, h7]
  exact Cert.ReferenceIdeal.Stages.out_eq _ _ _ _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
